-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64x16 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S128x64 .f32) (main_arg4 : FVec F S64 .f32) (main_arg5 : FVec F S64x16 .f32) (main_arg6 : FVec F S64x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 91
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S64x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000, .i1⟩
  | .hbm, ⟨13, _⟩ => ⟨S_, .f32⟩
  | .hbm, ⟨14, _⟩ => ⟨S_, .f32⟩
  | .hbm, ⟨15, _⟩ => ⟨S1600000, .f32⟩
  | .hbm, ⟨16, _⟩ => ⟨S1600000, .f32⟩
  | .hbm, ⟨17, _⟩ => ⟨S1600000, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .f32⟩
  | .hbm, ⟨54, _⟩ => ⟨S1600000, .f32⟩
  | .hbm, ⟨55, _⟩ => ⟨S1600000x1, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S1x64, .f32⟩
  | .hbm, ⟨72, _⟩ => ⟨S100000x64, .f32⟩
  | .hbm, ⟨73, _⟩ => ⟨S1600000x1, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .f32⟩
  | .hbm, ⟨83, _⟩ => ⟨S1600000x64, .f32⟩
  | .hbm, ⟨84, _⟩ => ⟨S1600000x64, .f32⟩
  | .hbm, ⟨85, _⟩ => ⟨S_, .f32⟩
  | .hbm, ⟨86, _⟩ => ⟨S100000x64, .f32⟩
  | .hbm, ⟨87, _⟩ => ⟨S1600000x1, .i32⟩
  | .hbm, ⟨88, _⟩ => ⟨S100000x64, .f32⟩
  | .hbm, ⟨89, _⟩ => ⟨S1x16, .f32⟩
  | .hbm, ⟨90, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x16, .f32⟩
  | .local _ .vmem, ⟨14, _⟩ => ⟨S64x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S16_S1x16 : S16.ShapeCasts S1x16
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S64x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000, .i1⟩
  | .hbm, ⟨13, _⟩ => ⟨S_, .f32⟩
  | .hbm, ⟨14, _⟩ => ⟨S_, .f32⟩
  | .hbm, ⟨15, _⟩ => ⟨S1600000, .f32⟩
  | .hbm, ⟨16, _⟩ => ⟨S1600000, .f32⟩
  | .hbm, ⟨17, _⟩ => ⟨S1600000, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .f32⟩
  | .hbm, ⟨54, _⟩ => ⟨S1600000, .f32⟩
  | .hbm, ⟨55, _⟩ => ⟨S1600000x1, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S1600000x1, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S1600000x64, .f32⟩
  | .hbm, ⟨91, _⟩ => ⟨S1600000x64, .f32⟩
  | .hbm, ⟨92, _⟩ => ⟨S_, .f32⟩
  | .hbm, ⟨93, _⟩ => ⟨S100000x64, .f32⟩
  | .hbm, ⟨94, _⟩ => ⟨S1600000x1, .i32⟩
  | .hbm, ⟨95, _⟩ => ⟨S100000x64, .f32⟩
  | .hbm, ⟨96, _⟩ => ⟨S100000x16, .f32⟩
  | .hbm, ⟨97, _⟩ => ⟨S100000x16, .f32⟩
  | .hbm, ⟨98, _⟩ => ⟨S100000x16, .f32⟩
  | .hbm, ⟨99, _⟩ => ⟨S1x16, .f32⟩
  | .hbm, ⟨100, _⟩ => ⟨S100000x16, .f32⟩
  | .hbm, ⟨101, _⟩ => ⟨S100000x16, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x16, .f32⟩
  | .hbm, ⟨109, _⟩ => ⟨S100000x16, .f32⟩
  | .hbm, ⟨110, _⟩ => ⟨S100000x16, .f32⟩
  | .hbm, ⟨111, _⟩ => ⟨S_, .f32⟩
  | .hbm, ⟨112, _⟩ => ⟨S100000, .f32⟩
  | .hbm, ⟨113, _⟩ => ⟨S100000x1, .f32⟩
  | .hbm, ⟨114, _⟩ => ⟨S100000x1, .f32⟩
  | .hbm, ⟨115, _⟩ => ⟨S100000x16, .f32⟩
  | .hbm, ⟨116, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call2_cst : Ref sig .tc := ⟨.hbm, 77, rfl⟩
abbrev main_call2_v0 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call3_cst : Ref sig .tc := ⟨.hbm, 102, rfl⟩
abbrev main_call3_v0 : Ref sig .tc := ⟨.hbm, 103, rfl⟩
abbrev main_call3_cst_0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_cst_1 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_v72 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.RefLayers.lean ====
/-
  The reference program's operations grouped into the functions the network is made of, over the reference's own shapes
  and dimension records, for any float type: the graph side (edge weights, degrees, the symmetric normalisation, the two
  neighbourhood aggregations by gather, scale and scatter-add) and the two dense layers (matrix products, bias, and the
  clamp at zero or the log-softmax along a row).
-/
import proofs.«179500_j36627481101156_1_alg».proof.Proof.Gen.ReferenceIdeal
import Idealize.ShloMosaic.Lib.Pipeline.Value
import Idealize.ShloMosaic.Lib.ValueLayout
import Idealize.ShloMosaic.PureOps.Ideal.Laws

noncomputable section

open scoped BigOperators

namespace Cert.ReferenceIdeal.Layers

open Cert.ReferenceIdeal Cert.ReferenceIdeal.Gen
open Idealize.ShloMosaic Idealize.ShloMosaic.TcCoe Idealize.ShloMosaic.ValueIdx

variable {F : FTy → Type} [FloatOps F]

/-! ## The graph side -/

/-- The edges' source nodes: row 0 of the edge list. -/
def src (e : IVec S2x1600000 32) : IVec S1600000 32 :=
  shapeCast _ (extractStridedSlice S1x1600000 ![0, 0] e slices_S2x1600000_S1x1600000_0_0) shapeCasts_S1x1600000_S1600000

/-- The edges' destination nodes: row 1 of the edge list. -/
def dst (e : IVec S2x1600000 32) : IVec S1600000 32 :=
  shapeCast _ (extractStridedSlice S1x1600000 ![1, 0] e slices_S2x1600000_S1x1600000_1_0) shapeCasts_S1x1600000_S1600000

/-- A node list as gather indices: a negative entry counted from the end (100000 added), each in a column of its own. -/
def wrapIdx (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- An edge's weight: 0 for a self-loop, 1 otherwise. -/
def edgeW (e : IVec S2x1600000 32) : FVec F S1600000 .f32 :=
  id (select (cmpi .eq (src e) (dst e)) (broadcastInDim S1600000 ![] bcast_S_S1600000 (constant S_ .f32 0x00000000#32))
    (broadcastInDim S1600000 ![] bcast_S_S1600000 (constant S_ .f32 0x3F800000#32)))

/-- A node's degree: the weights of the edges leaving it, added up. -/
def deg (e : IVec S2x1600000 32) : FVec F S100000 .f32 :=
  Host.scatterAdd scatter_S100000_S1600000x1_S1600000_n_0_0_1 (broadcastInDim S100000 ![] bcast_S_S100000 (constant S_ .f32 0x00000000#32))
    (broadcastInDim S1600000x1 ![0] bcast_S1600000_S1600000x1_0 (src e)) (edgeW e)

/-- 1 / sqrt(degree) where the degree is positive, 0 elsewhere. -/
def dinv (e : IVec S2x1600000 32) : FVec F S100000 .f32 :=
  select (cmpf .ogt (deg (F := F) e) (broadcastInDim S100000 ![] bcast_S_S100000 (constant S_ .f32 0x00000000#32)))
    (Host.divf (broadcastInDim S100000 ![] bcast_S_S100000 (constant S_ .f32 0x3F800000#32)) (Host.sqrt (deg (F := F) e)))
    (broadcastInDim S100000 ![] bcast_S_S100000 (id (constant S_ .f32 0x00000000#32)))

/-- An edge's entry of the scaled Laplacian: minus its weight, times dinv at its source, times dinv at its destination. -/
def norm (e : IVec S2x1600000 32) : FVec F S1600000 .f32 :=
  mulf (mulf (Host.negf (edgeW (F := F) e)) (Host.gather gather_S100000_S1600000x1_S1600000_n_0_n_n_0_1_1 (dinv (F := F) e) (wrapIdx (src e))))
    (Host.gather gather_S100000_S1600000x1_S1600000_n_0_n_n_0_1_1 (dinv (F := F) e) (wrapIdx (dst e)))

/-- The aggregation of 128-feature rows: each edge's source row scaled by the edge's entry, added into the destination row. -/
def aggr128 (x : FVec F S100000x128 .f32) (e : IVec S2x1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dst e))
    (mulf (broadcastInDim S1600000x128 ![0, 1] bcast_S1600000x1_S1600000x128_0_1 (broadcastInDim S1600000x1 ![0] bcast_S1600000_S1600000x1_0 (norm (F := F) e)))
      (Host.gather gather_S100000x128_S1600000x1_S1600000x128_1_0_n_n_0_1_1128 x (wrapIdx (src e))))

/-- The same aggregation of 64-feature rows. -/
def aggr64 (h : FVec F S100000x64 .f32) (e : IVec S2x1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst e))
    (mulf (broadcastInDim S1600000x64 ![0, 1] bcast_S1600000x1_S1600000x64_0_1 (broadcastInDim S1600000x1 ![0] bcast_S1600000_S1600000x1_0 (norm (F := F) e)))
      (Host.gather gather_S100000x64_S1600000x1_S1600000x64_1_0_n_n_0_1_164 h (wrapIdx (src e))))

/-! ## The dense layers -/

/-- x · W0 + t · W1 + b over 128 features into 64, before the activation. -/
def pre1 (x t : FVec F S100000x128 .f32) (w0 w1 : FVec F S128x64 .f32) (b : FVec F S64 .f32) : FVec F S100000x64 .f32 :=
  addf (addf (Host.dotGeneral dot_S100000x128_S128x64_S100000x64_1_0_0_1_n_n none x w0)
      (Host.dotGeneral dot_S100000x128_S128x64_S100000x64_1_0_0_1_n_n none t w1))
    (broadcastInDim S100000x64 ![0, 1] bcast_S1x64_S100000x64_0_1 (broadcastInDim S1x64 ![1] bcast_S64_S1x64_1 b))

/-- The first layer: clamped at zero from below. -/
def layer1 (x t : FVec F S100000x128 .f32) (w0 w1 : FVec F S128x64 .f32) (b : FVec F S64 .f32) : FVec F S100000x64 .f32 :=
  maximumf (pre1 x t w0 w1 b) (broadcastInDim S100000x64 ![] bcast_S_S100000x64 (constant S_ .f32 0x00000000#32))

/-- h · W0 + t · W1 + b over 64 features into 16. -/
def pre2 (h t : FVec F S100000x64 .f32) (w0 w1 : FVec F S64x16 .f32) (b : FVec F S16 .f32) : FVec F S100000x16 .f32 :=
  addf (addf (Host.dotGeneral dot_S100000x64_S64x16_S100000x16_1_0_0_1_n_n none h w0)
      (Host.dotGeneral dot_S100000x64_S64x16_S100000x16_1_0_0_1_n_n none t w1))
    (broadcastInDim S100000x16 ![0, 1] bcast_S1x16_S100000x16_0_1 (broadcastInDim S1x16 ![1] bcast_S16_S1x16_1 b))

/-- Each row's largest entry (the reduction from minus infinity, then once more against minus infinity). -/
def rowMax (a : FVec F S100000x16 .f32) : FVec F S100000 .f32 :=
  maximumf (broadcastInDim S100000 ![] bcast_S_S100000 (constant S_ .f32 0xFF800000#32))
    (Host.reduce FloatOps.maximumf a (constant S_ .f32 0xFF800000#32) reducesTo_S100000x16_S100000_d1 h_S_)

/-- Each entry minus its row's largest. -/
def shifted (a : FVec F S100000x16 .f32) : FVec F S100000x16 .f32 :=
  subf a (broadcastInDim S100000x16 ![0, 1] bcast_S100000x1_S100000x16_0_1 (broadcastInDim S100000x1 ![0] bcast_S100000_S100000x1_0 (rowMax a)))

/-- The log-softmax along each row, in the shifted form. -/
def logSoftmax (a : FVec F S100000x16 .f32) : FVec F S100000x16 .f32 :=
  subf (shifted a) (broadcastInDim S100000x16 ![0, 1] bcast_S100000x1_S100000x16_0_1
    (Host.log (broadcastInDim S100000x1 ![0] bcast_S100000_S100000x1_0
      (Host.reduceAdd (Host.exp (shifted a)) (constant S_ .f32 0x00000000#32) reducesTo_S100000x16_S100000_d1 h_S_))))

/-- The second layer. -/
def layer2 (h t : FVec F S100000x64 .f32) (w0 w1 : FVec F S64x16 .f32) (b : FVec F S16 .f32) : FVec F S100000x16 .f32 :=
  logSoftmax (pre2 h t w0 w1 b)

/-- The whole network as the reference computes it. -/
def network (x : FVec F S100000x128 .f32) (e : IVec S2x1600000 32) (w01 w11 : FVec F S128x64 .f32) (b1 : FVec F S64 .f32)
    (w02 w12 : FVec F S64x16 .f32) (b2 : FVec F S16 .f32) : FVec F S100000x16 .f32 :=
  layer2 (layer1 x (aggr128 x e) w01 w11 b1) (aggr64 (layer1 x (aggr128 x e) w01 w11 b1) e) w02 w12 b2

end Cert.ReferenceIdeal.Layers

end
-- ==== Proof.HostSide.lean ====
/-
  What the host operations of the idealized kernel program leave in the buffers the two regions read: the same graph
  functions of the arguments as the reference's (source and destination nodes, the scaled Laplacian's entry per edge,
  the two neighbourhood aggregations), the bias vectors reshaped to rows, and the arguments themselves untouched.
  Stated for any float type: nothing here computes with floats, the two programs apply the same operations to the
  same arrays, so each equation is the two spellings of one term.
-/
import proofs.«179500_j36627481101156_1_alg».proof.Proof.Gen.KernelIdeal.Frame
import proofs.«179500_j36627481101156_1_alg».proof.Proof.RefLayers
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before region 0 -/

/-- The edges' source nodes. -/
theorem W5_src (c : Dev nD) : W5 m ρ c (Proc.devRef .tc main_v1)
    = Cert.ReferenceIdeal.Layers.src (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v1) = _
  simp only [hostOps0_4, hostOps0_3, hostOps0_2, hostOps0_1, hostOps0]
  after_results_simp <;> rfl

/-- The edges' destination nodes. -/
theorem W5_dst (c : Dev nD) : W5 m ρ c (Proc.devRef .tc main_v3)
    = Cert.ReferenceIdeal.Layers.dst (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v3) = _
  simp only [hostOps0_4, hostOps0_3, hostOps0_2, hostOps0_1, hostOps0]
  after_results_simp <;> rfl

/-- The scaled Laplacian's entry per edge. -/
theorem W5_norm (c : Dev nD) : W5 m ρ c (Proc.devRef .tc main_v32)
    = Cert.ReferenceIdeal.Layers.norm (F := F) (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v32) = _
  simp only [hostOps0_4, hostOps0_3, hostOps0_2, hostOps0_1, hostOps0]
  after_results_simp <;> rfl

/-- The aggregate of the input features: region 0's second operand. -/
theorem W5_aggr (c : Dev nD) : W5 m ρ c (Proc.devRef .tc main_v45)
    = Cert.ReferenceIdeal.Layers.aggr128 (F := F) (m ((c : Thread nD τ).loc main_arg0)) (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v45) = _
  simp only [hostOps0_4, hostOps0_3, hostOps0_2, hostOps0_1, hostOps0]
  after_results_simp <;> rfl

/-- The first bias as a row: region 0's fifth operand. -/
theorem W5_bias (c : Dev nD) : W5 m ρ c (Proc.devRef .tc main_v46)
    = shapeCast S1x64 (m ((c : Thread nD τ).loc main_arg4)) shapeCasts_S64_S1x64 := by
  show StableHlo.after hostOps0_4 (StableHlo.after hostOps0_3 (StableHlo.after hostOps0_2 (StableHlo.after hostOps0_1
    (StableHlo.after hostOps0 (W0 m ρ c))))) (Proc.devRef .tc main_v46) = _
  simp only [hostOps0_4, hostOps0_3, hostOps0_2, hostOps0_1, hostOps0]
  after_results_simp <;> rfl

/-- No host operation before region 0 writes argument 0. -/
theorem W5_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  simp only [hostOps0_4, hostOps0_3, hostOps0_2, hostOps0_1, hostOps0]
  after_results_simp <;> rfl

/-- No host operation before region 0 writes argument 2. -/
theorem W5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1
    (StableHlo.after hostOps0 (W0 m ρ c))))) (Proc.devRef .tc main_arg2) = _
  simp only [hostOps0_4, hostOps0_3, hostOps0_2, hostOps0_1, hostOps0]
  after_results_simp <;> rfl

/-- No host operation before region 0 writes argument 3. -/
theorem W5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  simp only [hostOps0_4, hostOps0_3, hostOps0_2, hostOps0_1, hostOps0]
  after_results_simp <;> rfl

/-- No host operation before region 0 writes argument 5. -/
theorem W5_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1
    (StableHlo.after hostOps0 (W0 m ρ c))))) (Proc.devRef .tc main_arg5) = _
  simp only [hostOps0_4, hostOps0_3, hostOps0_2, hostOps0_1, hostOps0]
  after_results_simp <;> rfl

/-- No host operation before region 0 writes argument 6. -/
theorem W5_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1
    (StableHlo.after hostOps0 (W0 m ρ c))))) (Proc.devRef .tc main_arg6) = _
  simp only [hostOps0_4, hostOps0_3, hostOps0_2, hostOps0_1, hostOps0]
  after_results_simp <;> rfl

/-- No host operation before region 0 writes argument 7. -/
theorem W5_arg7 (c : Dev nD) : W5 m ρ c (Proc.devRef .tc main_arg7) = m ((c : Thread nD τ).loc main_arg7) := by
  show StableHlo.after hostOps0_4 (StableHlo.after hostOps0_3 (StableHlo.after hostOps0_2 (StableHlo.after hostOps0_1
    (StableHlo.after hostOps0 (W0 m ρ c))))) (Proc.devRef .tc main_arg7) = _
  simp only [hostOps0_4, hostOps0_3, hostOps0_2, hostOps0_1, hostOps0]
  after_results_simp <;> rfl

/-! ## Between the regions -/

/-- The aggregate of the hidden features, of whatever region 0 left in its output array: region 1's second operand. -/
theorem W7_aggr (c : Dev nD) : W7 m ρ c (Proc.devRef .tc main_v60)
    = Cert.ReferenceIdeal.Layers.aggr64 (F := F) (W6 m ρ c (Proc.devRef .tc main_v47)) (m ((c : Thread nD τ).loc main_arg1)) := by
  show StableHlo.after hostOps1 (W6 m ρ c) (Proc.devRef .tc main_v60) = _
  simp only [hostOps1]
  after_results_simp
  rw [W6_of_ne m ρ c main_v32 (by decide), W6_of_ne m ρ c main_v1 (by decide), W6_of_ne m ρ c main_v3 (by decide),
    W5_norm, W5_src, W5_dst]
  rfl

/-- The hidden features reach region 1 as region 0 left them. -/
theorem W7_hidden (c : Dev nD) : W7 m ρ c (Proc.devRef .tc main_v47) = W6 m ρ c (Proc.devRef .tc main_v47) := by
  show StableHlo.after hostOps1 (W6 m ρ c) (Proc.devRef .tc main_v47) = _
  simp only [hostOps1]
  after_results_simp

/-- The second bias as a row: region 1's fifth operand. -/
theorem W7_bias (c : Dev nD) : W7 m ρ c (Proc.devRef .tc main_v61)
    = shapeCast S1x16 (m ((c : Thread nD τ).loc main_arg7)) shapeCasts_S16_S1x16 := by
  show StableHlo.after hostOps1 (W6 m ρ c) (Proc.devRef .tc main_v61) = _
  simp only [hostOps1]
  after_results_simp
  rw [W6_of_ne m ρ c main_arg7 (by decide), W5_arg7]
  rfl

/-- Neither the operations between the regions nor region 0 write argument 5. -/
theorem W7_arg5 (c : Dev nD) : W7 m ρ c (Proc.devRef .tc main_arg5) = m ((c : Thread nD τ).loc main_arg5) := by
  show StableHlo.after hostOps1 (W6 m ρ c) (Proc.devRef .tc main_arg5) = _
  simp only [hostOps1]
  after_results_simp
  rw [W6_of_ne m ρ c main_arg5 (by decide), W5_arg5]

/-- Nor argument 6. -/
theorem W7_arg6 (c : Dev nD) : W7 m ρ c (Proc.devRef .tc main_arg6) = m ((c : Thread nD τ).loc main_arg6) := by
  show StableHlo.after hostOps1 (W6 m ρ c) (Proc.devRef .tc main_arg6) = _
  simp only [hostOps1]
  after_results_simp
  rw [W6_of_ne m ρ c main_arg6 (by decide), W5_arg6]

end Cert.KernelIdeal.HostSide

end
-- ==== Proof.Spec.lean ====
/-
  The two layers as plain functions of rows, at the ideal values (floats are extended reals).

  A layer takes a feature array x, its neighbourhood aggregate t (both n rows of k features), two k × m weight matrices
  and a bias of m entries. Row r of the dense part is x[r,:] · W0 + t[r,:] · W1 + b: each output entry a sum over the k
  features, twice, plus the bias entry. The first layer clamps that at zero from below; the second takes the logarithm
  of the softmax along the row: a[j] - max a, minus the logarithm of the sum of the exponentials of those differences.
-/
import Idealize.ShloMosaic.Lib.ValueIdx
import Idealize.ShloMosaic.PureOps.Ideal.Laws

noncomputable section

open scoped BigOperators

namespace Cert.Spec

open Idealize.ShloMosaic Idealize.ShloMosaic.ValueIdx

/-- Entry (r, j) of x · W0 + t · W1 + b. -/
def dense {n k m : Nat} (x t : FVec Ideal ⟨2, ![n, k]⟩ .f32) (w0 w1 : FVec Ideal ⟨2, ![k, m]⟩ .f32) (b : Fin m → EReal)
    (r : Fin n) (j : Fin m) : EReal :=
  ((∑ c : Fin k, x (ix2 r c) * w0 (ix2 c j)) + (∑ c : Fin k, t (ix2 r c) * w1 (ix2 c j))) + b j

/-- The first layer: the dense entry, or zero if that is larger. -/
def reluLayer {n k m : Nat} (x t : FVec Ideal ⟨2, ![n, k]⟩ .f32) (w0 w1 : FVec Ideal ⟨2, ![k, m]⟩ .f32) (b : Fin m → EReal)
    (r : Fin n) (j : Fin m) : EReal :=
  max (dense x t w0 w1 b r j) (Ideal.ofBits .f32 0x00000000#32)

/-- The largest entry of a row, starting the comparison from the pattern of minus infinity. -/
def rowMax {m : Nat} (a : Fin m → EReal) : EReal :=
  (Finset.univ : Finset (Fin m)).fold max (Ideal.ofBits .f32 0xFF800000#32) a

/-- The logarithm of the softmax of a row, at entry j, in the shifted form: (a j - max) - log (∑ exp (a j' - max)). -/
def logSoftmaxRow {m : Nat} (a : Fin m → EReal) (j : Fin m) : EReal :=
  (a j - rowMax a) - Ideal.log (∑ j' : Fin m, Ideal.exp (a j' - rowMax a))

/-- The second layer: the log-softmax along the row of the dense entries. -/
def lsmLayer {n k m : Nat} (x t : FVec Ideal ⟨2, ![n, k]⟩ .f32) (w0 w1 : FVec Ideal ⟨2, ![k, m]⟩ .f32) (b : Fin m → EReal)
    (r : Fin n) (j : Fin m) : EReal :=
  logSoftmaxRow (fun j' => dense x t w0 w1 b r j') j

/-- Starting a maximum from minus infinity changes nothing. -/
theorem max_negInf (y : EReal) : max (Ideal.ofBits .f32 0xFF800000#32) y = y := by
  simp [Ideal.ofBits, Ideal.ieee]

end Cert.Spec

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Region0.lean ====
/-
  Region 0 of the idealized kernel program (the first dense layer), read as a value.
  Grid point t handles rows 5000·t … 5000·t + 4999: it stages that row block of x and of the aggregate, the whole of both
  weight matrices and of the bias row, and writes back the block's dense entries clamped at zero. The output's twenty
  blocks tile its array, so after the region the array holds the first layer's value at every entry, whatever the
  region found in its buffers on entry.
-/
import proofs.«179500_j36627481101156_1_alg».proof.Proof.Gen.KernelIdeal.Frame
import proofs.«179500_j36627481101156_1_alg».proof.Proof.Spec
import proofs.«179500_j36627481101156_1_alg».proof.Proof.LibDot
import Idealize.ShloMosaic.Lib.Pipeline.Value
import Idealize.ShloMosaic.Lib.ValueLayout

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- The body's stored value at entry (p, q) of the block, from the five loaded blocks. -/
theorem pay_apply (x0 x1 : Vec Ideal S5000x128 .f32) (x2 x3 : Vec Ideal S128x64 .f32) (x4 : Vec Ideal S1x64 .f32)
    (p : Fin 5000) (q : Fin 64) :
    k0_pay1 (F := Ideal) x0 x1 x2 x3 x4 (ix2 p q)
      = Cert.Spec.reluLayer (n := 5000) (k := 128) (m := 64) x0 x1 x2 x3 (fun j => x4 (ix2 (0 : Fin 1) j)) p q := by
  have hm1 := Cert.LibDot.matmul_10_zero_apply (φ₁ := .bf16) (φ₂ := .bf16) dot_S5000x128_S128x64_S5000x64_1_0_0_1_n_n rfl rfl rfl rfl rfl rfl none
    (truncf .bf16 x0 bitsLt_bf16_f32) (truncf .bf16 x2 bitsLt_bf16_f32) p q
  have hm2 := Cert.LibDot.matmul_10_zero_apply (φ₁ := .bf16) (φ₂ := .bf16) dot_S5000x128_S128x64_S5000x64_1_0_0_1_n_n rfl rfl rfl rfl rfl rfl none
    (truncf .bf16 x1 bitsLt_bf16_f32) (truncf .bf16 x3 bitsLt_bf16_f32) p q
  have hb := broadcastTo_1b_ab_apply x4 broadcasts_S1x64_S5000x64 p q
  unfold k0_pay1 Cert.Spec.reluLayer Cert.Spec.dense
  rw [shapeCast_self, shapeCast_self]
  show max ((matmul _ none _ _ _ (ix2 p q) + matmul _ none _ _ _ (ix2 p q)) + broadcastTo _ _ _ (ix2 p q)) _ = _
  rw [hm1, hm2, hb]
  rfl

variable (V : (c : Dev nD) → (b : Ref sig .tc) → Buf (Elt Ideal) ((c : Thread nD τ).loc b))

/-- The block offsets of a rank-two unit rectangle at the origin are all zero. -/
theorem origin2 : (![0, 0] : Fin 2 → Nat) = fun _ => 0 :=
  funext fun a => by
    match a with
    | ⟨0, _⟩ => rfl
    | ⟨1, _⟩ => rfl

/-- The first layer's value of the arrays the region finds, as one array of 100000 rows and 64 columns. -/
def layer (c : Dev nD) : S100000x64.Idx → EReal := fun i =>
  Cert.Spec.reluLayer (n := 100000) (k := 128) (m := 64) (V c main_arg0) (V c main_v45) (V c main_arg2) (V c main_arg3)
    (fun j' => V c main_v46 (ix2 (0 : Fin 1) j')) (i 0) (i 1)

/-- The block index of every window at grid point t: the row-blocked windows are at block (t, 0), the whole-array
    windows at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, k) of the block of x at point t is entry (5000·t + p, k) of x. -/
theorem xblock_apply (c : Dev nD) (t : Fin cfg0.N) (p : Fin 5000) (k : Fin 128) (r : Fin 100000)
    (hr : r.val = t.val * 5000 + p.val) :
    (iblk0 V c 0 t : Vec Ideal S5000x128 .f32) (ix2 p k) = V c main_arg0 (ix2 r k) := by
  obtain ⟨e0, e1, -⟩ := block_index t
  unfold iblk0
  rw [View.read_apply]
  show V c main_arg0 (((cfg0.win 0).blk t).view.emb (ix2 p k)) = V c main_arg0 (ix2 r k)
  refine congrArg _ ?_
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- Entry (p, k) of the block of the aggregate at point t is entry (5000·t + p, k) of the aggregate. -/
theorem aggblock_apply (c : Dev nD) (t : Fin cfg0.N) (p : Fin 5000) (k : Fin 128) (r : Fin 100000)
    (hr : r.val = t.val * 5000 + p.val) :
    (iblk0 V c 1 t : Vec Ideal S5000x128 .f32) (ix2 p k) = V c main_v45 (ix2 r k) := by
  obtain ⟨-, -, e0, e1, -⟩ := block_index t
  unfold iblk0
  rw [View.read_apply]
  show V c main_v45 (((cfg0.win 1).blk t).view.emb (ix2 p k)) = V c main_v45 (ix2 r k)
  refine congrArg _ ?_
  funext a
  apply Fin.ext
  match a with
  | ⟨0, _⟩ => show win0_1.index t (0 : Fin 2) * 5000 + 1 * p.val = r.val; omega
  | ⟨1, _⟩ => show win0_1.index t (1 : Fin 2) * 128 + 1 * k.val = k.val; omega

/-- The block of the first weight matrix at any point is the whole matrix. -/
theorem w0block_apply (c : Dev nD) (t : Fin cfg0.N) (k : Fin 128) (q : Fin 64) :
    (iblk0 V c 2 t : Vec Ideal S128x64 .f32) (ix2 k q) = V c main_arg2 (ix2 k q) := by
  obtain ⟨-, -, -, -, e0, e1, -⟩ := block_index t
  unfold iblk0
  rw [View.read_apply]
  show V c main_arg2 (((cfg0.win 2).blk t).view.emb (ix2 k q)) = V c main_arg2 (ix2 k q)
  refine congrArg _ ?_
  funext a
  apply Fin.ext
  match a with
  | ⟨0, _⟩ => show win0_2.index t (0 : Fin 2) * 128 + 1 * k.val = k.val; omega
  | ⟨1, _⟩ => show win0_2.index t (1 : Fin 2) * 64 + 1 * q.val = q.val; omega

/-- The block of the second weight matrix at any point is the whole matrix. -/
theorem w1block_apply (c : Dev nD) (t : Fin cfg0.N) (k : Fin 128) (q : Fin 64) :
    (iblk0 V c 3 t : Vec Ideal S128x64 .f32) (ix2 k q) = V c main_arg3 (ix2 k q) := by
  obtain ⟨-, -, -, -, -, -, e0, e1, -⟩ := block_index t
  unfold iblk0
  rw [View.read_apply]
  show V c main_arg3 (((cfg0.win 3).blk t).view.emb (ix2 k q)) = V c main_arg3 (ix2 k q)
  refine congrArg _ ?_
  funext a
  apply Fin.ext
  match a with
  | ⟨0, _⟩ => show win0_3.index t (0 : Fin 2) * 128 + 1 * k.val = k.val; omega
  | ⟨1, _⟩ => show win0_3.index t (1 : Fin 2) * 64 + 1 * q.val = q.val; omega

/-- The block of the bias row at any point is the whole row. -/
theorem biasblock_apply (c : Dev nD) (t : Fin cfg0.N) (q : Fin 64) :
    (iblk0 V c 4 t : Vec Ideal S1x64 .f32) (ix2 (0 : Fin 1) q) = V c main_v46 (ix2 (0 : Fin 1) q) := by
  obtain ⟨-, -, -, -, -, -, -, -, e0, e1, -⟩ := block_index t
  unfold iblk0
  rw [View.read_apply]
  show V c main_v46 (((cfg0.win 4).blk t).view.emb (ix2 (0 : Fin 1) q)) = V c main_v46 (ix2 (0 : Fin 1) q)
  refine congrArg _ ?_
  funext a
  apply Fin.ext
  match a with
  | ⟨0, _⟩ => show win0_4.index t (0 : Fin 2) * 1 + 1 * (0 : Fin 1).val = (0 : Fin 1).val; omega
  | ⟨1, _⟩ => show win0_4.index t (1 : Fin 2) * 64 + 1 * q.val = q.val; omega

/-- What point t writes back is block t of the first layer's value: entry (p, q) of the block is the layer's
    entry (5000·t + p, q), each sum over the features read from the staged blocks being the sum read from the arrays. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x64) origin2,
    View.ld_unit_zero (S := S1x64) origin2]
  funext y
  obtain ⟨p, q, rfl⟩ : ∃ (p : Fin 5000) (q : Fin 64), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
      = layer V c (((cfg0.win 5).blk t).view.emb (ix2 p q))
  refine (pay_apply _ _ _ _ _ p q).trans ?_
  obtain ⟨-, -, -, -, -, -, -, -, -, -, e0, e1⟩ := block_index t
  have ht : t.val < 20 := lt_of_lt_of_eq t.isLt N_0
  have hemb : ((cfg0.win 5).blk t).view.emb (ix2 p q)
      = ix2 (⟨t.val * 5000 + p.val, by have := p.isLt; omega⟩ : Fin 100000) q := by
    funext a
    apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  rw [hemb]
  unfold layer Cert.Spec.reluLayer Cert.Spec.dense
  refine congrArg₂ max (congrArg₂ (· + ·) (congrArg₂ (· + ·) ?_ ?_) ?_) rfl
  · exact Finset.sum_congr rfl fun k _ =>
      congrArg₂ (· * ·) (xblock_apply V c t p k _ rfl) (w0block_apply V c t k q)
  · exact Finset.sum_congr rfl fun k _ =>
      congrArg₂ (· * ·) (aggblock_apply V c t p k _ rfl) (w1block_apply V c t k q)
  · exact biasblock_apply V c t q

/-- An entry of the output array is in point t's block iff each coordinate is in the block's range on its axis. -/
theorem mem_block (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v47).slice (win0_5.rect t)).set ↔ _
  rw [View.set_slice_whole, Rect.mem_set_unit]
  exact Iff.rfl

/-- The twenty blocks cover the output array: row r is in the block of point r / 5000. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 5000 < cfg0.N := lt_of_lt_of_eq (by omega : (i 0).val / 5000 < 20) N_0.symm
  refine ⟨⟨(i 0).val / 5000, hN⟩, flush0_5 _, ?_⟩
  rw [mem_block]
  obtain ⟨-, -, -, -, -, -, -, -, -, -, e0, e1⟩ := block_index ⟨(i 0).val / 5000, hN⟩
  have e0' : win0_5.index ⟨(i 0).val / 5000, hN⟩ (0 : Fin 2) = (i 0).val / 5000 := e0
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    omega
  | ⟨1, _⟩ =>
    show win0_5.index ⟨(i 0).val / 5000, hN⟩ (1 : Fin 2) * 64 ≤ (i 1).val
      ∧ (i 1).val < win0_5.index ⟨(i 0).val / 5000, hN⟩ (1 : Fin 2) * 64 + 64
    omega

/-- After the region the output array is the first layer's value, as one array. -/
theorem array_eq (c : Dev nD) : (dat0 (F := Ideal) V c).arrAt 5 cfg0.N = layer V c :=
  (dat0 V c).arrAt_eq_of_cover 5 (layer V c) (fun t _ => flushed_eq V c t) covered

/-- After the region its output array holds the first layer's value of the arrays the region found. -/
theorem value (c : Dev nD) (r : Fin 100000) (j : Fin 64) :
    (dat0 (F := Ideal) V c).arrAt 5 cfg0.N (ix2 r j)
      = Cert.Spec.reluLayer (n := 100000) (k := 128) (m := 64) (V c main_arg0) (V c main_v45) (V c main_arg2) (V c main_arg3)
          (fun j' => V c main_v46 (ix2 (0 : Fin 1) j')) r j := by
  exact congrFun (array_eq V c) (ix2 r j)

end Cert.KernelIdeal.Region0

end
-- ==== Proof.Region1.lean ====
/-
  Region 1 of the idealized kernel program (the second dense layer and the log-softmax), read as a value.
  Grid point t handles rows 5000·t … 5000·t + 4999 of the hidden features and of their aggregate; a row's log-softmax
  needs only that row's sixteen dense entries, all of which are in the block. The output's twenty blocks tile its array.
-/
import proofs.«179500_j36627481101156_1_alg».proof.Proof.Gen.KernelIdeal.Frame
import proofs.«179500_j36627481101156_1_alg».proof.Proof.Spec
import proofs.«179500_j36627481101156_1_alg».proof.Proof.LibDot
import Idealize.ShloMosaic.Lib.Pipeline.Value
import Idealize.ShloMosaic.Lib.ValueLayout

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic, one entry at a time -/

/-- A vector of `a` entries cast to one column reads, at (i, u), entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast to `[a, b]` reads, at (p, c), the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` with column `k` put back is (p, k). -/
theorem lift_row (h : S5000x16.Reduces [1] S5000) (p : Fin 5000) (k : Fin (S5000x16.size 1)) :
    h.lift (ix1 p) k = ix2 p (⟨k.val, k.isLt⟩ : Fin 16) := by
  funext c; apply Fin.ext
  match c with
  | ⟨0, _⟩ => rfl
  | ⟨1, _⟩ => rfl

/-- The row maximum of a `5000 × 16` vector at row `p`: the fold of `max` from minus infinity over the row. -/
theorem rowMax_apply (v : FVec Ideal S5000x16 .f32) (p : Fin 5000) :
    multiReduction (F := Ideal) .maximumf [1] S5000 v 0xFF800000#32 reduces_S5000x16_S5000 (.inl rfl) rfl (ix1 p)
      = Cert.Spec.rowMax (fun q : Fin 16 => v (ix2 p q)) := by
  refine (Ideal.multiReduction_maximumf_single v _ reduces_S5000x16_S5000 (.inl rfl) rfl (ix1 p)).trans ?_
  unfold Cert.Spec.rowMax
  have hf : (v ∘ reduces_S5000x16_S5000.lift (ix1 p)) = fun k : Fin 16 => v (ix2 p k) :=
    funext fun k => congrArg v (lift_row _ p k)
  exact congrArg (fun f => Finset.fold max (Ideal.ofBits .f32 0xFF800000#32) f (Finset.univ : Finset (Fin 16))) hf

/-- The row sum of a `5000 × 16` vector at row `p`. -/
theorem rowSum_apply (v : FVec Ideal S5000x16 .f32) (hacc : (0x00000000#32 : BitVec 32) = 0x00000000#32) (p : Fin 5000) :
    multiReduction (F := Ideal) .add [1] S5000 v 0x00000000#32 reduces_S5000x16_S5000 (.inl rfl) hacc (ix1 p)
      = ∑ q : Fin 16, v (ix2 p q) := by
  refine (Ideal.multiReduction_add_single v _ reduces_S5000x16_S5000 (.inl rfl) hacc (ix1 p)).trans ?_
  exact Finset.sum_congr rfl fun k _ => congrArg v (lift_row _ p k)

/-- An entry minus its row's maximum, as the body computes it. -/
theorem shifted_apply (v : FVec Ideal S5000x16 .f32) (p : Fin 5000) (q : Fin 16) :
    subf v (broadcastTo S5000x16 (shapeCast S5000x1
        (multiReduction (F := Ideal) .maximumf [1] S5000 v 0xFF800000#32 reduces_S5000x16_S5000 (.inl rfl) rfl)
        shapeCasts_S5000_S5000x1) broadcasts_S5000x1_S5000x16) (ix2 p q)
      = v (ix2 p q) - Cert.Spec.rowMax (fun q' : Fin 16 => v (ix2 p q')) := by
  refine (subf_apply _ _ _).trans (congrArg (v (ix2 p q) - ·) ?_)
  refine (broadcastTo_a1_ab_apply _ _ p q).trans ?_
  refine (shapeCast_a_a1_apply _ _ p 0).trans ?_
  exact rowMax_apply v p

/-- The logarithm of a row's sum of exponentials, broadcast back over the row. -/
theorem logSum_apply (w : FVec Ideal S5000x16 .f32) (hacc : (0x00000000#32 : BitVec 32) = 0x00000000#32)
    (p : Fin 5000) (q : Fin 16) :
    broadcastTo S5000x16 (log (shapeCast S5000x1
        (multiReduction (F := Ideal) .add [1] S5000 (exp w) 0x00000000#32 reduces_S5000x16_S5000 (.inl rfl) hacc)
        shapeCasts_S5000_S5000x1)) broadcasts_S5000x1_S5000x16 (ix2 p q)
      = Ideal.log (∑ q' : Fin 16, Ideal.exp (w (ix2 p q'))) := by
  refine (broadcastTo_a1_ab_apply _ _ p q).trans ?_
  show Ideal.log (shapeCast S5000x1 _ shapeCasts_S5000_S5000x1 (ix2 p (0 : Fin 1))) = _
  refine congrArg Ideal.log ?_
  refine (shapeCast_a_a1_apply _ _ p 0).trans ?_
  exact rowSum_apply (exp w) hacc p

/-- The body's last six operations over the dense entries `v`: the logarithm of the softmax along the row. -/
theorem logSoftmax_apply (v : FVec Ideal S5000x16 .f32) (hacc : (0x00000000#32 : BitVec 32) = 0x00000000#32)
    (p : Fin 5000) (q : Fin 16) :
    subf (subf v (broadcastTo S5000x16 (shapeCast S5000x1
          (multiReduction (F := Ideal) .maximumf [1] S5000 v 0xFF800000#32 reduces_S5000x16_S5000 (.inl rfl) rfl)
          shapeCasts_S5000_S5000x1) broadcasts_S5000x1_S5000x16))
        (broadcastTo S5000x16 (log (shapeCast S5000x1
          (multiReduction (F := Ideal) .add [1] S5000 (exp (subf v (broadcastTo S5000x16 (shapeCast S5000x1
              (multiReduction (F := Ideal) .maximumf [1] S5000 v 0xFF800000#32 reduces_S5000x16_S5000 (.inl rfl) rfl)
              shapeCasts_S5000_S5000x1) broadcasts_S5000x1_S5000x16))) 0x00000000#32 reduces_S5000x16_S5000 (.inl rfl) hacc)
          shapeCasts_S5000_S5000x1)) broadcasts_S5000x1_S5000x16) (ix2 p q)
      = Cert.Spec.logSoftmaxRow (fun q' : Fin 16 => v (ix2 p q')) q := by
  refine (subf_apply _ _ _).trans ?_
  rw [shifted_apply v p q, logSum_apply _ hacc p q]
  unfold Cert.Spec.logSoftmaxRow
  refine congrArg (fun s => v (ix2 p q) - Cert.Spec.rowMax (fun q' : Fin 16 => v (ix2 p q')) - Ideal.log s) ?_
  exact Finset.sum_congr rfl fun q' _ => congrArg Ideal.exp (shifted_apply v p q')

/-- The dense entry (p, q) as the body computes it: both products summed over the 64 features, plus the bias entry. -/
theorem dense_apply (x0 x1 : Vec Ideal S5000x64 .f32) (x2 x3 : Vec Ideal S64x16 .f32) (x4 : Vec Ideal S1x16 .f32)
    (p : Fin 5000) (q : Fin 16) :
    (addf (addf
        (matmul (F := Ideal) dot_S5000x64_S64x16_S5000x16_1_0_0_1_n_n none
          (truncf .bf16 (shapeCast S5000x64 x0 shapeCasts_S5000x64_S5000x64) bitsLt_bf16_f32)
          (truncf .bf16 x2 bitsLt_bf16_f32) (constant (F := Ideal) S5000x16 .f32 0x00000000#32))
        (matmul (F := Ideal) dot_S5000x64_S64x16_S5000x16_1_0_0_1_n_n none
          (truncf .bf16 (shapeCast S5000x64 x1 shapeCasts_S5000x64_S5000x64) bitsLt_bf16_f32)
          (truncf .bf16 x3 bitsLt_bf16_f32) (constant (F := Ideal) S5000x16 .f32 0x00000000#32)))
      (broadcastTo S5000x16 (shapeCast S1x16 x4 shapeCasts_S1x16_S1x16) broadcasts_S1x16_S5000x16)
        : FVec Ideal S5000x16 .f32) (ix2 p q)
      = Cert.Spec.dense (n := 5000) (k := 64) (m := 16) x0 x1 x2 x3 (fun j => x4 (ix2 (0 : Fin 1) j)) p q := by
  unfold Cert.Spec.dense
  rw [shapeCast_self x0, shapeCast_self x1, shapeCast_self x4]
  refine (addf_apply _ _ _).trans ?_
  refine congrArg₂ (· + ·) ((addf_apply _ _ _).trans (congrArg₂ (· + ·) ?_ ?_)) ?_
  · exact Cert.LibDot.matmul_10_zero_apply _ rfl rfl rfl rfl rfl rfl none _ _ p q
  · exact Cert.LibDot.matmul_10_zero_apply _ rfl rfl rfl rfl rfl rfl none _ _ p q
  · exact broadcastTo_1b_ab_apply _ _ p q

/-- The body's stored value at entry (p, q) of the block, from the five loaded blocks. -/
theorem pay_apply (x0 x1 : Vec Ideal S5000x64 .f32) (x2 x3 : Vec Ideal S64x16 .f32) (x4 : Vec Ideal S1x16 .f32)
    (p : Fin 5000) (q : Fin 16) :
    k1_pay1 (F := Ideal) x0 x1 x2 x3 x4 (ix2 p q)
      = Cert.Spec.lsmLayer (n := 5000) (k := 64) (m := 16) x0 x1 x2 x3 (fun j => x4 (ix2 (0 : Fin 1) j)) p q := by
  unfold k1_pay1
  refine (logSoftmax_apply _ rfl p q).trans ?_
  unfold Cert.Spec.lsmLayer
  exact congrArg (fun a => Cert.Spec.logSoftmaxRow a q) (funext fun q' => dense_apply x0 x1 x2 x3 x4 p q')

/-! ## From the blocks to the array -/

/-- The second layer over the blocks, at row `p` of the block, is the second layer over the arrays at row `r`, when the
    two feature blocks' rows `p` are the arrays' rows `r` and the weights and the bias are read whole: a row's value needs
    only that row's features. -/
theorem lsmLayer_block (X T : FVec Ideal S100000x64 .f32) (W0 W1 : FVec Ideal S64x16 .f32) (B : FVec Ideal S1x16 .f32)
    (x0 x1 : Vec Ideal S5000x64 .f32) (x2 x3 : Vec Ideal S64x16 .f32) (x4 : Vec Ideal S1x16 .f32)
    (p : Fin 5000) (r : Fin 100000)
    (h0 : ∀ k : Fin 64, x0 (ix2 p k) = X (ix2 r k)) (h1 : ∀ k : Fin 64, x1 (ix2 p k) = T (ix2 r k))
    (h2 : ∀ (k : Fin 64) (j : Fin 16), x2 (ix2 k j) = W0 (ix2 k j))
    (h3 : ∀ (k : Fin 64) (j : Fin 16), x3 (ix2 k j) = W1 (ix2 k j))
    (h4 : ∀ j : Fin 16, x4 (ix2 (0 : Fin 1) j) = B (ix2 (0 : Fin 1) j)) (q : Fin 16) :
    Cert.Spec.lsmLayer (n := 5000) (k := 64) (m := 16) x0 x1 x2 x3 (fun j => x4 (ix2 (0 : Fin 1) j)) p q
      = Cert.Spec.lsmLayer (n := 100000) (k := 64) (m := 16) X T W0 W1 (fun j => B (ix2 (0 : Fin 1) j)) r q := by
  have hd : (fun j' : Fin 16 => Cert.Spec.dense (n := 5000) (k := 64) (m := 16) x0 x1 x2 x3 (fun j => x4 (ix2 (0 : Fin 1) j)) p j')
      = fun j' : Fin 16 => Cert.Spec.dense (n := 100000) (k := 64) (m := 16) X T W0 W1 (fun j => B (ix2 (0 : Fin 1) j)) r j' := by
    funext j'
    unfold Cert.Spec.dense
    simp only [h0, h1, h2, h3, h4]
  unfold Cert.Spec.lsmLayer
  rw [hd]

/-- The offsets of a whole-block access are zero on both axes. -/
theorem hz : (![0, 0] : Fin 2 → Nat) = fun _ => 0 := funext fun a => by fin_cases a <;> rfl

variable (V : (c : Dev nD) → (b : Ref sig .tc) → Buf (Elt Ideal) ((c : Thread nD τ).loc b))

/-- What the output array ends holding: the second layer's value of the arrays the region found, entry by entry. -/
abbrev G (c : Dev nD) : S100000x16.Idx → EReal := fun i =>
  Cert.Spec.lsmLayer (n := 100000) (k := 64) (m := 16) (V c main_v47) (V c main_v60) (V c main_arg5) (V c main_arg6)
    (fun j' => V c main_v61 (ix2 (0 : Fin 1) j')) (i 0) (i 1)

/-- The printed index maps over the grid: the two feature windows and the output move down the rows one block per point,
    the weights and the bias stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the feature block at point `t` is row `5000 t + p` of the feature array. -/
theorem iblk_feat (c : Dev nD) (t : Fin cfg1.N) (p : Fin 5000) (k : Fin 64) (r : Fin 100000)
    (hr : r.val = 5000 * t.val + p.val) :
    (iblk1 (F := Ideal) V c 0 t : Vec Ideal S5000x64 .f32) (ix2 p k) = (V c main_v47 : S100000x64.Idx → EReal) (ix2 r k) := by
  obtain ⟨e00, e01, e10, e11, -⟩ := idx_facts t
  unfold iblk1
  rw [View.read_apply]
  show V c main_v47 _ = V c main_v47 _
  congr 1
  funext a; apply Fin.ext
  match a with
  | ⟨0, _⟩ => show win1_0.index t (0 : Fin 2) * 5000 + 1 * p.val = r.val; omega
  | ⟨1, _⟩ => show win1_0.index t (1 : Fin 2) * 64 + 1 * k.val = k.val; omega

/-- Row `p` of the aggregate's block at point `t` is row `5000 t + p` of the aggregate. -/
theorem iblk_agg (c : Dev nD) (t : Fin cfg1.N) (p : Fin 5000) (k : Fin 64) (r : Fin 100000)
    (hr : r.val = 5000 * t.val + p.val) :
    (iblk1 (F := Ideal) V c 1 t : Vec Ideal S5000x64 .f32) (ix2 p k) = (V c main_v60 : S100000x64.Idx → EReal) (ix2 r k) := by
  obtain ⟨e00, e01, e10, e11, -⟩ := idx_facts t
  unfold iblk1
  rw [View.read_apply]
  show V c main_v60 _ = V c main_v60 _
  congr 1
  funext a; apply Fin.ext
  match a with
  | ⟨0, _⟩ => show win1_1.index t (0 : Fin 2) * 5000 + 1 * p.val = r.val; omega
  | ⟨1, _⟩ => show win1_1.index t (1 : Fin 2) * 64 + 1 * k.val = k.val; omega

/-- The first weight matrix is read whole at every point. -/
theorem iblk_w0 (c : Dev nD) (t : Fin cfg1.N) (k : Fin 64) (j : Fin 16) :
    (iblk1 (F := Ideal) V c 2 t : Vec Ideal S64x16 .f32) (ix2 k j) = (V c main_arg5 : S64x16.Idx → EReal) (ix2 k j) := by
  obtain ⟨-, -, -, -, e20, e21, e30, e31, e40, e41, -⟩ := idx_facts t
  unfold iblk1
  rw [View.read_apply]
  show V c main_arg5 _ = V c main_arg5 _
  congr 1
  funext a; apply Fin.ext
  match a with
  | ⟨0, _⟩ => show win1_2.index t (0 : Fin 2) * 64 + 1 * k.val = k.val; omega
  | ⟨1, _⟩ => show win1_2.index t (1 : Fin 2) * 16 + 1 * j.val = j.val; omega

/-- The second weight matrix is read whole at every point. -/
theorem iblk_w1 (c : Dev nD) (t : Fin cfg1.N) (k : Fin 64) (j : Fin 16) :
    (iblk1 (F := Ideal) V c 3 t : Vec Ideal S64x16 .f32) (ix2 k j) = (V c main_arg6 : S64x16.Idx → EReal) (ix2 k j) := by
  obtain ⟨-, -, -, -, e20, e21, e30, e31, e40, e41, -⟩ := idx_facts t
  unfold iblk1
  rw [View.read_apply]
  show V c main_arg6 _ = V c main_arg6 _
  congr 1
  funext a; apply Fin.ext
  match a with
  | ⟨0, _⟩ => show win1_3.index t (0 : Fin 2) * 64 + 1 * k.val = k.val; omega
  | ⟨1, _⟩ => show win1_3.index t (1 : Fin 2) * 16 + 1 * j.val = j.val; omega

/-- The bias row is read whole at every point. -/
theorem iblk_bias (c : Dev nD) (t : Fin cfg1.N) (k : Fin 1) (j : Fin 16) :
    (iblk1 (F := Ideal) V c 4 t : Vec Ideal S1x16 .f32) (ix2 k j) = (V c main_v61 : S1x16.Idx → EReal) (ix2 k j) := by
  obtain ⟨-, -, -, -, e20, e21, e30, e31, e40, e41, -⟩ := idx_facts t
  unfold iblk1
  rw [View.read_apply]
  show V c main_v61 _ = V c main_v61 _
  congr 1
  funext a; apply Fin.ext
  match a with
  | ⟨0, _⟩ => show win1_4.index t (0 : Fin 2) * 1 + 1 * k.val = k.val; omega
  | ⟨1, _⟩ => show win1_4.index t (1 : Fin 2) * 16 + 1 * j.val = j.val; omega

/-- What point `t` writes back is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x16) hz, View.ld_unit_zero (S := S1x16) hz]
  show (k1_pay1 (F := Ideal) (iblk1 V c 0 t) (iblk1 V c 1 t) (iblk1 V c 2 t) (iblk1 V c 3 t) (iblk1 V c 4 t)
        : S5000x16.Idx → EReal)
      = fun y : S5000x16.Idx => G V c (((cfg1.win 5).blk t).view.emb y)
  funext y
  obtain ⟨p, q, rfl⟩ : ∃ (p : Fin 5000) (q : Fin 16), y = ix2 p q := ⟨y 0, y 1, eq_ix2 y⟩
  have ht : t.val < 20 := Nat.lt_of_lt_of_eq t.isLt (show cfg1.N = 20 from N_1)
  obtain ⟨-, -, -, -, -, -, -, -, -, -, e50, e51⟩ := idx_facts t
  have hr : 5000 * t.val + p.val < 100000 := by have := p.isLt; omega
  have he : ((cfg1.win 5).blk t).view.emb (ix2 p q) = ix2 (⟨5000 * t.val + p.val, hr⟩ : Fin 100000) q := by
    funext a; apply Fin.ext
    match a with
    | ⟨0, _⟩ => show win1_5.index t (0 : Fin 2) * 5000 + 1 * p.val = 5000 * t.val + p.val; omega
    | ⟨1, _⟩ => show win1_5.index t (1 : Fin 2) * 16 + 1 * q.val = q.val; omega
  rw [he]
  refine (pay_apply _ _ _ _ _ p q).trans ?_
  exact lsmLayer_block _ _ _ _ _ _ _ _ _ _ p ⟨_, hr⟩ (fun k => iblk_feat V c t p k _ rfl) (fun k => iblk_agg V c t p k _ rfl)
    (iblk_w0 V c t) (iblk_w1 V c t) (iblk_bias V c t 0) q

/-- An entry of the array is in point `t`'s block iff each coordinate is in the block's range on its axis. -/
theorem mem_blk (t : Fin cfg1.N) (i : S100000x16.Idx) :
    i ∈ ((cfg1.win 5).blk t).view.set ↔ ∀ a : Fin 2, win1_5.index t a * S5000x16.size a ≤ (i a).val
      ∧ (i a).val < win1_5.index t a * S5000x16.size a + S5000x16.size a := by
  show i ∈ ((View.whole main_v62).slice (win1_5.rect t)).set ↔ _
  rw [View.set_slice_whole, Rect.mem_set_unit]
  exact Iff.rfl

/-- The twenty blocks tile the array: row `r` is in the block of point `r / 5000`. -/
theorem cover (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  obtain ⟨t, ht⟩ : ∃ t : Fin cfg1.N, t.val = (i 0).val / 5000 :=
    ⟨⟨(i 0).val / 5000, Nat.lt_of_lt_of_eq (by omega : (i 0).val / 5000 < 20) (show cfg1.N = 20 from N_1).symm⟩, rfl⟩
  obtain ⟨-, -, -, -, -, -, -, -, -, -, e50, e51⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 16 ≤ (i 1).val ∧ (i 1).val < win1_5.index t (1 : Fin 2) * 16 + 16
    omega

/-- After the region its output array holds the second layer's value of the arrays the region found. -/
theorem value (c : Dev nD) (r : Fin 100000) (j : Fin 16) :
    (dat1 (F := Ideal) V c).arrAt 5 cfg1.N (ix2 r j)
      = Cert.Spec.lsmLayer (n := 100000) (k := 64) (m := 16) (V c main_v47) (V c main_v60) (V c main_arg5) (V c main_arg6)
          (fun j' => V c main_v61 (ix2 (0 : Fin 1) j')) r j := by
  have h := (dat1 (F := Ideal) V c).arrAt_eq_of_cover 5 (G V c) (fun t _ => flushed_eq V c t) cover
  exact congrFun h (ix2 r j)

end Cert.KernelIdeal.Region1

end
-- ==== Proof.RefLayersAt.lean ====
/-
  The reference's two dense layers at the ideal values, entry by entry: entry (r, j) of each is the row function of the
  specification: the host's matrix products are sums over the contracted coordinate, the bias reaches every row, the
  row maximum is the fold of max from minus infinity, and the host's sum starts from zero.
-/
import proofs.«179500_j36627481101156_1_alg».proof.Proof.RefLayers
import proofs.«179500_j36627481101156_1_alg».proof.Proof.Spec
import Idealize.ShloMosaic.Lib.Pipeline.Value
import Idealize.ShloMosaic.Lib.ValueLayout
import Idealize.ShloMosaic.PureOps.Ideal.Laws

noncomputable section

open scoped BigOperators

namespace Cert.ReferenceIdeal.Layers

open Cert.ReferenceIdeal Cert.ReferenceIdeal.Gen
open Idealize.ShloMosaic Idealize.ShloMosaic.TcCoe Idealize.ShloMosaic.ValueIdx

/-! ## The matrix products at an entry -/

/-- The left operand's row is the output's row (axis 0 is kept, not contracted). -/
theorem d1_lhs_0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl
/-- The left operand's column is the contracted coordinate. -/
theorem d1_lhs_1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
/-- The right operand's row is the contracted coordinate. -/
theorem d1_rhs_0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
/-- The right operand's column is the output's column. -/
theorem d1_rhs_1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- Entry (r, j) of the 128-feature product: the sum over the contracted coordinate. -/
theorem dot1_apply (x : FVec Ideal S100000x128 .f32) (w : FVec Ideal S128x64 .f32) (r : Fin 100000) (j : Fin 64) :
    Host.dotGeneral (F := Ideal) dot_S100000x128_S128x64_S100000x64_1_0_0_1_n_n none x w (ix2 r j) = ∑ c : Fin 128, x (ix2 r c) * w (ix2 c j) := by
  simp only [Host.dotGeneral]
  rw [Ideal.dotGeneral_apply, ← Equiv.sum_comp (contrEquiv1 dot_S100000x128_S128x64_S100000x64_1_0_0_1_n_n 128 rfl rfl).symm]
  refine Finset.sum_congr rfl fun c _ => ?_
  have hc := contrEquiv1_symm_val dot_S100000x128_S128x64_S100000x64_1_0_0_1_n_n 128 rfl rfl c
  have el : dot_S100000x128_S128x64_S100000x64_1_0_0_1_n_n.lhsIdx (ix2 r j) ((contrEquiv1 dot_S100000x128_S128x64_S100000x64_1_0_0_1_n_n 128 rfl rfl).symm c) = ix2 r c := funext fun a => Fin.ext (by
    match a with
    | ⟨0, _⟩ => exact d1_lhs_0 _ _
    | ⟨1, _⟩ => exact (d1_lhs_1 _ _).trans hc)
  have er : dot_S100000x128_S128x64_S100000x64_1_0_0_1_n_n.rhsIdx (ix2 r j) ((contrEquiv1 dot_S100000x128_S128x64_S100000x64_1_0_0_1_n_n 128 rfl rfl).symm c) = ix2 c j := funext fun a => Fin.ext (by
    match a with
    | ⟨0, _⟩ => exact (d1_rhs_0 _ _).trans hc
    | ⟨1, _⟩ => exact d1_rhs_1 _ _)
  rw [el, er]

theorem d2_lhs_0 (i : S100000x16.Idx) (q : dot_S100000x64_S64x16_S100000x16_1_0_0_1_n_n.contr.Idx) : (dot_S100000x64_S64x16_S100000x16_1_0_0_1_n_n.lhsIdx i q 0).val = (i 0).val := by
  unfold DotDims.lhsIdx
  rw [dif_neg (show ¬(0 : Fin S100000x64.rank) ∈ dot_S100000x64_S64x16_S100000x16_1_0_0_1_n_n.lhsBatch by decide),
    dif_pos (show (0 : Fin S100000x64.rank) ∈ dot_S100000x64_S64x16_S100000x16_1_0_0_1_n_n.lhsNonContracting by decide)]
  rfl
theorem d2_lhs_1 (i : S100000x16.Idx) (q : dot_S100000x64_S64x16_S100000x16_1_0_0_1_n_n.contr.Idx) : (dot_S100000x64_S64x16_S100000x16_1_0_0_1_n_n.lhsIdx i q 1).val = (q ⟨0, by decide⟩).val :=
  dot_S100000x64_S64x16_S100000x16_1_0_0_1_n_n.lhsIdx_val_of_single rfl i q
theorem d2_rhs_0 (i : S100000x16.Idx) (q : dot_S100000x64_S64x16_S100000x16_1_0_0_1_n_n.contr.Idx) : (dot_S100000x64_S64x16_S100000x16_1_0_0_1_n_n.rhsIdx i q 0).val = (q ⟨0, by decide⟩).val :=
  dot_S100000x64_S64x16_S100000x16_1_0_0_1_n_n.rhsIdx_val_of_single rfl i q
theorem d2_rhs_1 (i : S100000x16.Idx) (q : dot_S100000x64_S64x16_S100000x16_1_0_0_1_n_n.contr.Idx) : (dot_S100000x64_S64x16_S100000x16_1_0_0_1_n_n.rhsIdx i q 1).val = (i 1).val := by
  unfold DotDims.rhsIdx
  rw [dif_neg (show ¬(1 : Fin S64x16.rank) ∈ dot_S100000x64_S64x16_S100000x16_1_0_0_1_n_n.rhsBatch by decide),
    dif_pos (show (1 : Fin S64x16.rank) ∈ dot_S100000x64_S64x16_S100000x16_1_0_0_1_n_n.rhsNonContracting by decide)]
  rfl

/-- Entry (r, j) of the 64-feature product. -/
theorem dot2_apply (x : FVec Ideal S100000x64 .f32) (w : FVec Ideal S64x16 .f32) (r : Fin 100000) (j : Fin 16) :
    Host.dotGeneral (F := Ideal) dot_S100000x64_S64x16_S100000x16_1_0_0_1_n_n none x w (ix2 r j) = ∑ c : Fin 64, x (ix2 r c) * w (ix2 c j) := by
  simp only [Host.dotGeneral]
  rw [Ideal.dotGeneral_apply, ← Equiv.sum_comp (contrEquiv1 dot_S100000x64_S64x16_S100000x16_1_0_0_1_n_n 64 rfl rfl).symm]
  refine Finset.sum_congr rfl fun c _ => ?_
  have hc := contrEquiv1_symm_val dot_S100000x64_S64x16_S100000x16_1_0_0_1_n_n 64 rfl rfl c
  have el : dot_S100000x64_S64x16_S100000x16_1_0_0_1_n_n.lhsIdx (ix2 r j) ((contrEquiv1 dot_S100000x64_S64x16_S100000x16_1_0_0_1_n_n 64 rfl rfl).symm c) = ix2 r c := funext fun a => Fin.ext (by
    match a with
    | ⟨0, _⟩ => exact d2_lhs_0 _ _
    | ⟨1, _⟩ => exact (d2_lhs_1 _ _).trans hc)
  have er : dot_S100000x64_S64x16_S100000x16_1_0_0_1_n_n.rhsIdx (ix2 r j) ((contrEquiv1 dot_S100000x64_S64x16_S100000x16_1_0_0_1_n_n 64 rfl rfl).symm c) = ix2 c j := funext fun a => Fin.ext (by
    match a with
    | ⟨0, _⟩ => exact (d2_rhs_0 _ _).trans hc
    | ⟨1, _⟩ => exact d2_rhs_1 _ _)
  rw [el, er]

/-! ## The broadcasts at an entry -/

/-- The 64-entry bias, made a row and repeated down the rows, at (r, j) is its entry j. -/
theorem bias1_apply (b : FVec Ideal S64 .f32) (r : Fin 100000) (j : Fin 64) :
    broadcastInDim S100000x64 ![0, 1] bcast_S1x64_S100000x64_0_1 (broadcastInDim S1x64 ![1] bcast_S64_S1x64_1 b) (ix2 r j)
      = b (ix1 j) := by
  refine (broadcastInDim_apply _ bcast_S1x64_S100000x64_0_1 _ (ix2 r j) (ix2 (0 : Fin 1) j) (fun a => ?_)).trans
    (broadcastInDim_apply _ bcast_S64_S1x64_1 b (ix2 (0 : Fin 1) j) (ix1 j) (fun a => ?_))
  · match a with
    | ⟨0, _⟩ => show (0 : Nat) = if (1 : Nat) = 1 then 0 else r.val; rw [if_pos rfl]
    | ⟨1, _⟩ => show j.val = if (64 : Nat) = 1 then 0 else j.val; rw [if_neg (by decide)]
  · match a with
    | ⟨0, _⟩ => show j.val = if (64 : Nat) = 1 then 0 else j.val; rw [if_neg (by decide)]

/-- The 16-entry bias likewise. -/
theorem bias2_apply (b : FVec Ideal S16 .f32) (r : Fin 100000) (j : Fin 16) :
    broadcastInDim S100000x16 ![0, 1] bcast_S1x16_S100000x16_0_1 (broadcastInDim S1x16 ![1] bcast_S16_S1x16_1 b) (ix2 r j)
      = b (ix1 j) := by
  refine (broadcastInDim_apply _ bcast_S1x16_S100000x16_0_1 _ (ix2 r j) (ix2 (0 : Fin 1) j) (fun a => ?_)).trans
    (broadcastInDim_apply _ bcast_S16_S1x16_1 b (ix2 (0 : Fin 1) j) (ix1 j) (fun a => ?_))
  · match a with
    | ⟨0, _⟩ => show (0 : Nat) = if (1 : Nat) = 1 then 0 else r.val; rw [if_pos rfl]
    | ⟨1, _⟩ => show j.val = if (16 : Nat) = 1 then 0 else j.val; rw [if_neg (by decide)]
  · match a with
    | ⟨0, _⟩ => show j.val = if (16 : Nat) = 1 then 0 else j.val; rw [if_neg (by decide)]

/-- A scalar spread over the 100000 x 64 array reads the scalar everywhere. -/
theorem splat64_apply (c : FVec Ideal S_ .f32) (i : S100000x64.Idx) :
    broadcastInDim S100000x64 ![] bcast_S_S100000x64 c i = c ix0 :=
  broadcastInDim_apply _ bcast_S_S100000x64 c i ix0 (fun a => a.elim0)

/-- A scalar spread over the 100000 rows reads the scalar everywhere. -/
theorem splatRows_apply (c : FVec Ideal S_ .f32) (i : S100000.Idx) :
    broadcastInDim S100000 ![] bcast_S_S100000 c i = c ix0 :=
  broadcastInDim_apply _ bcast_S_S100000 c i ix0 (fun a => a.elim0)

/-- A vector over the rows made a column, at (r, 0), is its entry r. -/
theorem col_apply {α : Type} (v : S100000.Idx → α) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => by
    match a with
    | ⟨0, _⟩ => show r.val = if (100000 : Nat) = 1 then 0 else r.val; rw [if_neg (by decide)])

/-- A column repeated along the 16 entries of each row, at (r, j), is the column at (r, 0). -/
theorem spreadCol_apply {α : Type} (y : S100000x1.Idx → α) (r : Fin 100000) (j : Fin 16) :
    broadcastInDim S100000x16 ![0, 1] bcast_S100000x1_S100000x16_0_1 y (ix2 r j) = y (ix2 r (0 : Fin 1)) :=
  broadcastInDim_apply _ bcast_S100000x1_S100000x16_0_1 y (ix2 r j) (ix2 r (0 : Fin 1)) (fun a => by
    match a with
    | ⟨0, _⟩ => show r.val = if (100000 : Nat) = 1 then 0 else r.val; rw [if_neg (by decide)]
    | ⟨1, _⟩ => show (0 : Nat) = if (1 : Nat) = 1 then 0 else j.val; rw [if_pos rfl])

/-! ## The dense parts -/

/-- Entry (r, j) of x · W0 + t · W1 + b over 128 features. -/
theorem pre1_apply (x t : FVec Ideal S100000x128 .f32) (w0 w1 : FVec Ideal S128x64 .f32) (b : FVec Ideal S64 .f32)
    (r : Fin 100000) (j : Fin 64) :
    pre1 (F := Ideal) x t w0 w1 b (ix2 r j)
      = Cert.Spec.dense (n := 100000) (k := 128) (m := 64) x t w0 w1 (fun j' => b (ix1 j')) r j := by
  unfold pre1 Cert.Spec.dense
  rw [addf_apply, addf_apply, dot1_apply, dot1_apply, bias1_apply]

/-- Entry (r, j) of h · W0 + t · W1 + b over 64 features. -/
theorem pre2_apply (h t : FVec Ideal S100000x64 .f32) (w0 w1 : FVec Ideal S64x16 .f32) (b : FVec Ideal S16 .f32)
    (r : Fin 100000) (j : Fin 16) :
    pre2 (F := Ideal) h t w0 w1 b (ix2 r j)
      = Cert.Spec.dense (n := 100000) (k := 64) (m := 16) h t w0 w1 (fun j' => b (ix1 j')) r j := by
  unfold pre2 Cert.Spec.dense
  rw [addf_apply, addf_apply, dot2_apply, dot2_apply, bias2_apply]

/-! ## The reductions along a row -/

/-- Putting coordinate k back at axis 1 of a row index gives (r, k). -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The row maximum at row r is the fold of max, from minus infinity, over the row's 16 entries. -/
theorem rowMax_apply (a : FVec Ideal S100000x16 .f32) (r : Fin 100000) :
    rowMax (F := Ideal) a (ix1 r) = Cert.Spec.rowMax (fun j : Fin 16 => a (ix2 r j)) := by
  unfold rowMax Cert.Spec.rowMax
  rw [maximumf_apply, splatRows_apply, constant_apply, Cert.Spec.max_negInf]
  have hr : S100000x16.Reduces [1] S100000 := by decide
  rw [Host.reduce_eq_fold_single FloatOps.maximumf a _ reducesTo_S100000x16_S100000_d1 hr h_S_]
  have hf : (a ∘ hr.lift (ix1 r)) = fun k : Fin 16 => a (ix2 r k) := funext fun k => congrArg a (lift_row hr r k)
  exact congrArg (fun f => Finset.fold max (Ideal.ofBits .f32 0xFF800000#32) f (Finset.univ : Finset (Fin 16))) hf

/-- The host's sum along a row, from zero, is the sum of the row's 16 entries. -/
theorem rowSum_apply (y : FVec Ideal S100000x16 .f32) (r : Fin 100000) :
    Host.reduceAdd (F := Ideal) y (constant S_ .f32 0x00000000#32) reducesTo_S100000x16_S100000_d1 h_S_ (ix1 r)
      = ∑ k : Fin 16, y (ix2 r k) := by
  have hr : S100000x16.Reduces [1] S100000 := by decide
  simp only [Host.reduceAdd, Ideal.hostReduceAdd_def]
  rw [Ideal.hostReduceAdd_single reducesTo_S100000x16_S100000_d1 hr, constant_apply, Ideal.ofBits_zero_f32, zero_add]
  exact Finset.sum_congr rfl fun k _ => congrArg y (lift_row hr r k)

/-! ## The log-softmax -/

/-- The host's exponential at an index is the exponential of the entry. -/
theorem hostExp_apply {s : Shape} (x : FVec Ideal s .f32) (i : s.Idx) : Host.exp (F := Ideal) x i = Ideal.exp (x i) := rfl
/-- The host's logarithm at an index is the logarithm of the entry. -/
theorem hostLog_apply {s : Shape} (x : FVec Ideal s .f32) (i : s.Idx) : Host.log (F := Ideal) x i = Ideal.log (x i) := rfl

/-- Entry (r, j) minus the row's maximum. -/
theorem shifted_apply (a : FVec Ideal S100000x16 .f32) (r : Fin 100000) (j : Fin 16) :
    shifted (F := Ideal) a (ix2 r j) = a (ix2 r j) - Cert.Spec.rowMax (fun j' : Fin 16 => a (ix2 r j')) := by
  unfold shifted
  rw [subf_apply, spreadCol_apply, col_apply, rowMax_apply]

/-- Entry (r, j) of the log-softmax is the row function at j. -/
theorem logSoftmax_apply (a : FVec Ideal S100000x16 .f32) (r : Fin 100000) (j : Fin 16) :
    logSoftmax (F := Ideal) a (ix2 r j) = Cert.Spec.logSoftmaxRow (fun j' : Fin 16 => a (ix2 r j')) j := by
  unfold logSoftmax Cert.Spec.logSoftmaxRow
  rw [subf_apply, shifted_apply, spreadCol_apply, hostLog_apply, col_apply, rowSum_apply]
  refine congrArg (fun s => _ - Ideal.log s) (Finset.sum_congr rfl fun k _ => ?_)
  rw [hostExp_apply, shifted_apply]

/-! ## The layers at the ideal values, entry by entry -/

/-- Entry (r, j) of the first layer is the row function of the specification. -/
theorem layer1_apply (x t : FVec Ideal S100000x128 .f32) (w0 w1 : FVec Ideal S128x64 .f32) (b : FVec Ideal S64 .f32)
    (r : Fin 100000) (j : Fin 64) :
    layer1 (F := Ideal) x t w0 w1 b (ix2 r j)
      = Cert.Spec.reluLayer (n := 100000) (k := 128) (m := 64) x t w0 w1 (fun j' => b (ix1 j')) r j := by
  unfold layer1 Cert.Spec.reluLayer
  rw [maximumf_apply, pre1_apply, splat64_apply, constant_apply]

/-- Entry (r, j) of the second layer is the row function of the specification. -/
theorem layer2_apply (h t : FVec Ideal S100000x64 .f32) (w0 w1 : FVec Ideal S64x16 .f32) (b : FVec Ideal S16 .f32)
    (r : Fin 100000) (j : Fin 16) :
    layer2 (F := Ideal) h t w0 w1 b (ix2 r j)
      = Cert.Spec.lsmLayer (n := 100000) (k := 64) (m := 16) h t w0 w1 (fun j' => b (ix1 j')) r j := by
  unfold layer2 Cert.Spec.lsmLayer
  rw [logSoftmax_apply]
  exact congrArg (fun f => Cert.Spec.logSoftmaxRow f j) (funext fun j' => pre2_apply h t w0 w1 b r j')

end Cert.ReferenceIdeal.Layers

end
-- ==== Proof.KernelValue.lean ====
/-
  The idealized kernel program's result as a value. Region 1's output array, where the run ends, holds the
  log-softmax layer of what region 1 found; what it found is region 0's output (the clamped first layer of the
  arguments and their aggregate), that array's own aggregate, the second weights and the second bias as a row.
  Entry by entry each region's output is the row function of the specification, and so is each of the reference's
  layers; hence the result array is the reference's network function of the arguments.
-/
import proofs.«179500_j36627481101156_1_alg».proof.Proof.KernelRun
import proofs.«179500_j36627481101156_1_alg».proof.Proof.HostSide
import proofs.«179500_j36627481101156_1_alg».proof.Proof.Region0
import proofs.«179500_j36627481101156_1_alg».proof.Proof.Region1
import proofs.«179500_j36627481101156_1_alg».proof.Proof.RefLayersAt
import Idealize.ShloMosaic.Lib.Pipeline.Value
import Idealize.ShloMosaic.Lib.ValueLayout

set_option maxRecDepth 16384

noncomputable section

namespace Cert.KernelIdeal.Result

open Cert.KernelIdeal Cert.KernelIdeal.Gen Cert.KernelIdeal.HostSide
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first layer of the network at the launch contents of the arguments, as the reference spells it. -/
abbrev hidden (c : Dev nD) : FVec Ideal Cert.ReferenceIdeal.S100000x64 .f32 :=
  Cert.ReferenceIdeal.Layers.layer1 (F := Ideal) (m ((c : Thread nD τ).loc main_arg0))
    (Cert.ReferenceIdeal.Layers.aggr128 (F := Ideal) (m ((c : Thread nD τ).loc main_arg0)) (m ((c : Thread nD τ).loc main_arg1)))
    (m ((c : Thread nD τ).loc main_arg2)) (m ((c : Thread nD τ).loc main_arg3)) (m ((c : Thread nD τ).loc main_arg4))

/-- Region 0 leaves the first layer in the hidden-feature array: entry by entry both are the clamped dense entry of the
    same arrays (the region's operands are the arguments, their aggregate, and the bias as a row). -/
theorem hidden_eq (c : Dev nD) : W6 m ρ c (Proc.devRef .tc main_v47) = hidden m c := by
  refine (W6_arr m ρ c 5).trans ?_
  funext i
  obtain ⟨r, j, rfl⟩ : ∃ (r : Fin 100000) (j : Fin 64), i = ix2 r j := ⟨i 0, i 1, eq_ix2 i⟩
  rw [Cert.KernelIdeal.Region0.value]
  refine Eq.trans ?_ (Cert.ReferenceIdeal.Layers.layer1_apply _ _ _ _ _ r j).symm
  have e0 : V5 m ρ c main_arg0 = (m ((c : Thread nD τ).loc main_arg0)) := W5_arg0 m ρ c
  have e1 : V5 m ρ c main_v45 = Cert.ReferenceIdeal.Layers.aggr128 (F := Ideal) (m ((c : Thread nD τ).loc main_arg0)) (m ((c : Thread nD τ).loc main_arg1)) := W5_aggr m ρ c
  have e2 : V5 m ρ c main_arg2 = (m ((c : Thread nD τ).loc main_arg2)) := W5_arg2 m ρ c
  have e3 : V5 m ρ c main_arg3 = (m ((c : Thread nD τ).loc main_arg3)) := W5_arg3 m ρ c
  have e4 : (fun j' : Fin 64 => V5 m ρ c main_v46 (ix2 (0 : Fin 1) j')) = fun j' => (m ((c : Thread nD τ).loc main_arg4)) (ix1 j') :=
    funext fun j' => by
      rw [show V5 m ρ c main_v46 = _ from W5_bias m ρ c]
      exact shapeCast_a_1a_apply _ _ 0 j'
  rw [e0, e1, e2, e3, e4]

/-- Region 1 leaves the whole network's value in the result array. -/
theorem result_eq (c : Dev nD) : W8 m ρ c (Proc.devRef .tc main_v62)
    = Cert.ReferenceIdeal.Layers.network (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (W8_arr m ρ c 5).trans ?_
  funext i
  obtain ⟨r, j, rfl⟩ : ∃ (r : Fin 100000) (j : Fin 16), i = ix2 r j := ⟨i 0, i 1, eq_ix2 i⟩
  rw [Cert.KernelIdeal.Region1.value]
  refine Eq.trans ?_ (Cert.ReferenceIdeal.Layers.layer2_apply _ _ _ _ _ r j).symm
  have e0 : V7 m ρ c main_v47 = hidden m c := (W7_hidden m ρ c).trans (hidden_eq m ρ c)
  have e1 : V7 m ρ c main_v60 = Cert.ReferenceIdeal.Layers.aggr64 (F := Ideal) (hidden m c) (m ((c : Thread nD τ).loc main_arg1)) :=
    (W7_aggr m ρ c).trans (by rw [hidden_eq m ρ c])
  have e2 : V7 m ρ c main_arg5 = (m ((c : Thread nD τ).loc main_arg5)) := W7_arg5 m ρ c
  have e3 : V7 m ρ c main_arg6 = (m ((c : Thread nD τ).loc main_arg6)) := W7_arg6 m ρ c
  have e4 : (fun j' : Fin 16 => V7 m ρ c main_v61 (ix2 (0 : Fin 1) j')) = fun j' => (m ((c : Thread nD τ).loc main_arg7)) (ix1 j') :=
    funext fun j' => by
      rw [show V7 m ρ c main_v61 = _ from W7_bias m ρ c]
      exact shapeCast_a_1a_apply _ _ 0 j'
  rw [e0, e1, e2, e3, e4]

/-- The run of the idealized kernel program, its result named: the whole network's value of the arguments. -/
theorem run : θ_run defs (onTc (τ := τ) (main (F := Ideal))) ⟨m, fun _ => 0, ρ⟩ (fun r => ∀ c : Dev nD,
      r.2.mem ((c.tc : Thread nD τ).loc main_v62)
        = Cert.ReferenceIdeal.Layers.network (F := Ideal) (m ((c : Thread nD τ).loc main_arg0)) (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m ρ c), (h c).2⟩)
    (Cert.KernelIdeal.GenRun.run_result m ρ)

end Cert.KernelIdeal.Result

end
-- ==== Proof.RefValue.lean ====
/-
  The reference program's result as a value. Its 109 host operations are run in eight stretches: the graph side up to the
  first aggregate, the first dense layer, the second aggregate, and the second layer in five (its dense part, the row
  maxima, the shifted entries, the row sums of their exponentials, the logarithms taken off). After each stretch the
  buffers the later ones read hold the graph functions and layers of what the stretch found, and every other buffer a
  later stretch reads is untouched; composed, the result buffer ends at the network function of the launch contents of
  the arguments, which themselves no operation writes.
-/
import proofs.«179500_j36627481101156_1_alg».proof.Proof.RefOps
import proofs.«179500_j36627481101156_1_alg».proof.Proof.RefLayers
import Idealize.ShloMosaic.Lib.StableHlo.Run
import Idealize.ShloMosaic.Lib.Pipeline.Frame

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The four stretches -/

/-- Operations 1 to 63: edge weights, degrees, normalisation, the aggregate of the input features. -/
abbrev opsA : List (HloOp τ sig (Elt F)) := (ops (F := F)).take 63
/-- Operations 64 to 72: the first dense layer. -/
abbrev opsB : List (HloOp τ sig (Elt F)) := ((ops (F := F)).drop 63).take 9
/-- Operations 73 to 88: the aggregate of the hidden features. -/
abbrev opsC : List (HloOp τ sig (Elt F)) := ((ops (F := F)).drop 72).take 16
/-- Operations 89 to 94: the second dense layer before the log-softmax. -/
abbrev opsD1 : List (HloOp τ sig (Elt F)) := ((ops (F := F)).drop 88).take 6
/-- Operations 95 to 99: each row's largest entry. -/
abbrev opsD2 : List (HloOp τ sig (Elt F)) := ((ops (F := F)).drop 94).take 5
/-- Operations 100 to 102: each entry minus its row's largest. -/
abbrev opsD3 : List (HloOp τ sig (Elt F)) := ((ops (F := F)).drop 99).take 3
/-- Operations 103 to 105: the exponentials and their sum along each row. -/
abbrev opsD4 : List (HloOp τ sig (Elt F)) := ((ops (F := F)).drop 102).take 3
/-- Operations 106 to 109: the logarithm of the sums, taken off the shifted entries. -/
abbrev opsD5 : List (HloOp τ sig (Elt F)) := (ops (F := F)).drop 105

/-- The operation list is its stretches in order. -/
theorem ops_split : (ops : List (HloOp τ sig (Elt F)))
    = opsA ++ (opsB ++ (opsC ++ (opsD1 ++ (opsD2 ++ (opsD3 ++ (opsD4 ++ opsD5)))))) := by
  have h5 : (ops (F := F)).drop 105 = ((ops (F := F)).drop 102).drop 3 := by rw [List.drop_drop]
  have h4 : (ops (F := F)).drop 102 = ((ops (F := F)).drop 99).drop 3 := by rw [List.drop_drop]
  have h3 : (ops (F := F)).drop 99 = ((ops (F := F)).drop 94).drop 5 := by rw [List.drop_drop]
  have h2 : (ops (F := F)).drop 94 = ((ops (F := F)).drop 88).drop 6 := by rw [List.drop_drop]
  have h1 : (ops (F := F)).drop 88 = ((ops (F := F)).drop 72).drop 16 := by rw [List.drop_drop]
  have h0 : (ops (F := F)).drop 72 = ((ops (F := F)).drop 63).drop 9 := by rw [List.drop_drop]
  show _ = (ops (F := F)).take 63 ++ (((ops (F := F)).drop 63).take 9 ++ (((ops (F := F)).drop 72).take 16 ++
    (((ops (F := F)).drop 88).take 6 ++ (((ops (F := F)).drop 94).take 5 ++ (((ops (F := F)).drop 99).take 3 ++
    (((ops (F := F)).drop 102).take 3 ++ (ops (F := F)).drop 105))))))
  rw [h5, List.take_append_drop, h4, List.take_append_drop, h3, List.take_append_drop, h2, List.take_append_drop,
    h1, List.take_append_drop, h0, List.take_append_drop, List.take_append_drop]

/-- So the buffers after the whole list are those after the stretches in turn. -/
theorem after_ops (V : Valuation τ sig (Elt F)) :
    after (ops (F := F)) V
      = after opsD5 (after opsD4 (after opsD3 (after opsD2 (after opsD1 (after opsC (after opsB (after opsA V))))))) := by
  conv_lhs => rw [ops_split]
  simp only [StableHlo.after_append]

/-! ## The first stretch -/

/-- The edges' source nodes. -/
theorem A_src (V : Valuation τ sig (Elt F)) : after (opsA (F := F)) V (Proc.devRef .tc main_v1)
    = Cert.ReferenceIdeal.Layers.src (V (Proc.devRef .tc main_arg1)) := by
  simp only [opsA, ops, List.take_succ_cons, List.take_zero, List.drop_succ_cons, List.drop_zero]
  after_results_simp <;> rfl

/-- The edges' destination nodes. -/
theorem A_dst (V : Valuation τ sig (Elt F)) : after (opsA (F := F)) V (Proc.devRef .tc main_v3)
    = Cert.ReferenceIdeal.Layers.dst (V (Proc.devRef .tc main_arg1)) := by
  simp only [opsA, ops, List.take_succ_cons, List.take_zero, List.drop_succ_cons, List.drop_zero]
  after_results_simp <;> rfl

/-- The scaled Laplacian's entry per edge. -/
theorem A_norm (V : Valuation τ sig (Elt F)) : after (opsA (F := F)) V (Proc.devRef .tc main_v32)
    = Cert.ReferenceIdeal.Layers.norm (F := F) (V (Proc.devRef .tc main_arg1)) := by
  simp only [opsA, ops, List.take_succ_cons, List.take_zero, List.drop_succ_cons, List.drop_zero]
  after_results_simp <;> rfl

/-- The aggregate of the input features. -/
theorem A_aggr (V : Valuation τ sig (Elt F)) : after (opsA (F := F)) V (Proc.devRef .tc main_v45)
    = Cert.ReferenceIdeal.Layers.aggr128 (F := F) (V (Proc.devRef .tc main_arg0)) (V (Proc.devRef .tc main_arg1)) := by
  simp only [opsA, ops, List.take_succ_cons, List.take_zero, List.drop_succ_cons, List.drop_zero]
  after_results_simp <;> rfl

/-- The first stretch does not write argument 0. -/
theorem A_arg0 (V : Valuation τ sig (Elt F)) : after (opsA (F := F)) V (Proc.devRef .tc main_arg0) = V (Proc.devRef .tc main_arg0) := by
  simp only [opsA, ops, List.take_succ_cons, List.take_zero, List.drop_succ_cons, List.drop_zero]
  after_results_simp <;> rfl

/-- The first stretch does not write argument 1. -/
theorem A_arg1 (V : Valuation τ sig (Elt F)) : after (opsA (F := F)) V (Proc.devRef .tc main_arg1) = V (Proc.devRef .tc main_arg1) := by
  simp only [opsA, ops, List.take_succ_cons, List.take_zero, List.drop_succ_cons, List.drop_zero]
  after_results_simp <;> rfl

/-- The first stretch does not write argument 2. -/
theorem A_arg2 (V : Valuation τ sig (Elt F)) : after (opsA (F := F)) V (Proc.devRef .tc main_arg2) = V (Proc.devRef .tc main_arg2) := by
  simp only [opsA, ops, List.take_succ_cons, List.take_zero, List.drop_succ_cons, List.drop_zero]
  after_results_simp <;> rfl

/-- The first stretch does not write argument 3. -/
theorem A_arg3 (V : Valuation τ sig (Elt F)) : after (opsA (F := F)) V (Proc.devRef .tc main_arg3) = V (Proc.devRef .tc main_arg3) := by
  simp only [opsA, ops, List.take_succ_cons, List.take_zero, List.drop_succ_cons, List.drop_zero]
  after_results_simp <;> rfl

/-- The first stretch does not write argument 4. -/
theorem A_arg4 (V : Valuation τ sig (Elt F)) : after (opsA (F := F)) V (Proc.devRef .tc main_arg4) = V (Proc.devRef .tc main_arg4) := by
  simp only [opsA, ops, List.take_succ_cons, List.take_zero, List.drop_succ_cons, List.drop_zero]
  after_results_simp <;> rfl

/-- The first stretch does not write argument 5. -/
theorem A_arg5 (V : Valuation τ sig (Elt F)) : after (opsA (F := F)) V (Proc.devRef .tc main_arg5) = V (Proc.devRef .tc main_arg5) := by
  simp only [opsA, ops, List.take_succ_cons, List.take_zero, List.drop_succ_cons, List.drop_zero]
  after_results_simp <;> rfl

/-- The first stretch does not write argument 6. -/
theorem A_arg6 (V : Valuation τ sig (Elt F)) : after (opsA (F := F)) V (Proc.devRef .tc main_arg6) = V (Proc.devRef .tc main_arg6) := by
  simp only [opsA, ops, List.take_succ_cons, List.take_zero, List.drop_succ_cons, List.drop_zero]
  after_results_simp <;> rfl

/-- The first stretch does not write argument 7. -/
theorem A_arg7 (V : Valuation τ sig (Elt F)) : after (opsA (F := F)) V (Proc.devRef .tc main_arg7) = V (Proc.devRef .tc main_arg7) := by
  simp only [opsA, ops, List.take_succ_cons, List.take_zero, List.drop_succ_cons, List.drop_zero]
  after_results_simp <;> rfl

/-! ## The second stretch -/

/-- The first layer of what the stretch finds in the features, their aggregate, the first weights and bias. -/
theorem B_hidden (V : Valuation τ sig (Elt F)) : after (opsB (F := F)) V (Proc.devRef .tc main_v52)
    = Cert.ReferenceIdeal.Layers.layer1 (F := F) (V (Proc.devRef .tc main_arg0)) (V (Proc.devRef .tc main_v45)) (V (Proc.devRef .tc main_arg2)) (V (Proc.devRef .tc main_arg3)) (V (Proc.devRef .tc main_arg4)) := by
  simp only [opsB, ops, List.take_succ_cons, List.take_zero, List.drop_succ_cons, List.drop_zero]
  after_results_simp <;> rfl

/-- The second stretch does not write this buffer. -/
theorem B_v1 (V : Valuation τ sig (Elt F)) : after (opsB (F := F)) V (Proc.devRef .tc main_v1) = V (Proc.devRef .tc main_v1) := by
  simp only [opsB, ops, List.take_succ_cons, List.take_zero, List.drop_succ_cons, List.drop_zero]
  after_results_simp <;> rfl

/-- The second stretch does not write this buffer. -/
theorem B_v3 (V : Valuation τ sig (Elt F)) : after (opsB (F := F)) V (Proc.devRef .tc main_v3) = V (Proc.devRef .tc main_v3) := by
  simp only [opsB, ops, List.take_succ_cons, List.take_zero, List.drop_succ_cons, List.drop_zero]
  after_results_simp <;> rfl

/-- The second stretch does not write this buffer. -/
theorem B_v32 (V : Valuation τ sig (Elt F)) : after (opsB (F := F)) V (Proc.devRef .tc main_v32) = V (Proc.devRef .tc main_v32) := by
  simp only [opsB, ops, List.take_succ_cons, List.take_zero, List.drop_succ_cons, List.drop_zero]
  after_results_simp <;> rfl

/-- The second stretch does not write this buffer. -/
theorem B_arg5 (V : Valuation τ sig (Elt F)) : after (opsB (F := F)) V (Proc.devRef .tc main_arg5) = V (Proc.devRef .tc main_arg5) := by
  simp only [opsB, ops, List.take_succ_cons, List.take_zero, List.drop_succ_cons, List.drop_zero]
  after_results_simp <;> rfl

/-- The second stretch does not write this buffer. -/
theorem B_arg6 (V : Valuation τ sig (Elt F)) : after (opsB (F := F)) V (Proc.devRef .tc main_arg6) = V (Proc.devRef .tc main_arg6) := by
  simp only [opsB, ops, List.take_succ_cons, List.take_zero, List.drop_succ_cons, List.drop_zero]
  after_results_simp <;> rfl

/-- The second stretch does not write this buffer. -/
theorem B_arg7 (V : Valuation τ sig (Elt F)) : after (opsB (F := F)) V (Proc.devRef .tc main_arg7) = V (Proc.devRef .tc main_arg7) := by
  simp only [opsB, ops, List.take_succ_cons, List.take_zero, List.drop_succ_cons, List.drop_zero]
  after_results_simp <;> rfl

/-! ## The third stretch -/

/-- The aggregate of the hidden features, when the stretch finds the graph side's results in their buffers. -/
theorem C_aggr (V : Valuation τ sig (Elt F)) (e : IVec S2x1600000 32)
    (hs : V (Proc.devRef .tc main_v1) = Cert.ReferenceIdeal.Layers.src e)
    (hd : V (Proc.devRef .tc main_v3) = Cert.ReferenceIdeal.Layers.dst e)
    (hn : V (Proc.devRef .tc main_v32) = Cert.ReferenceIdeal.Layers.norm (F := F) e) :
    after (opsC (F := F)) V (Proc.devRef .tc main_v65)
      = Cert.ReferenceIdeal.Layers.aggr64 (F := F) (V (Proc.devRef .tc main_v52)) e := by
  simp only [opsC, ops, List.take_succ_cons, List.take_zero, List.drop_succ_cons, List.drop_zero]
  after_results_simp
  rw [hs, hd, hn]
  rfl

/-- The third stretch does not write this buffer. -/
theorem C_v52 (V : Valuation τ sig (Elt F)) : after (opsC (F := F)) V (Proc.devRef .tc main_v52) = V (Proc.devRef .tc main_v52) := by
  simp only [opsC, ops, List.take_succ_cons, List.take_zero, List.drop_succ_cons, List.drop_zero]
  after_results_simp <;> rfl

/-- The third stretch does not write this buffer. -/
theorem C_arg5 (V : Valuation τ sig (Elt F)) : after (opsC (F := F)) V (Proc.devRef .tc main_arg5) = V (Proc.devRef .tc main_arg5) := by
  simp only [opsC, ops, List.take_succ_cons, List.take_zero, List.drop_succ_cons, List.drop_zero]
  after_results_simp <;> rfl

/-- The third stretch does not write this buffer. -/
theorem C_arg6 (V : Valuation τ sig (Elt F)) : after (opsC (F := F)) V (Proc.devRef .tc main_arg6) = V (Proc.devRef .tc main_arg6) := by
  simp only [opsC, ops, List.take_succ_cons, List.take_zero, List.drop_succ_cons, List.drop_zero]
  after_results_simp <;> rfl

/-- The third stretch does not write this buffer. -/
theorem C_arg7 (V : Valuation τ sig (Elt F)) : after (opsC (F := F)) V (Proc.devRef .tc main_arg7) = V (Proc.devRef .tc main_arg7) := by
  simp only [opsC, ops, List.take_succ_cons, List.take_zero, List.drop_succ_cons, List.drop_zero]
  after_results_simp <;> rfl

/-! ## A value moved to a literal buffer's own type and back is the value

The log-softmax is an inlined function, whose operations read and write their buffers through a change of type that is
the identity at each literal buffer. -/

theorem toBuf_v71 (v : (⟨S100000x16, .f32⟩ : BufTy).Contents (Elt F)) :
    (TRef.of (T := ⟨S100000x16, .f32⟩) main_v71).toBuf (Val := Elt F) v = v := rfl
theorem ofBuf_v71 (v : main_v71.ty.Contents (Elt F)) :
    (TRef.of (T := ⟨S100000x16, .f32⟩) main_v71).ofBuf (Val := Elt F) v = v := rfl
theorem toBuf_v72 (v : (⟨S100000x16, .f32⟩ : BufTy).Contents (Elt F)) :
    (TRef.of (T := ⟨S100000x16, .f32⟩) main_v72).toBuf (Val := Elt F) v = v := rfl
theorem ofBuf_v72 (v : main_v72.ty.Contents (Elt F)) :
    (TRef.of (T := ⟨S100000x16, .f32⟩) main_v72).ofBuf (Val := Elt F) v = v := rfl
theorem toBuf_call3_cst (v : (⟨S_, .f32⟩ : BufTy).Contents (Elt F)) :
    (TRef.of (T := ⟨S_, .f32⟩) main_call3_cst).toBuf (Val := Elt F) v = v := rfl
theorem ofBuf_call3_cst (v : main_call3_cst.ty.Contents (Elt F)) :
    (TRef.of (T := ⟨S_, .f32⟩) main_call3_cst).ofBuf (Val := Elt F) v = v := rfl
theorem toBuf_call3_v0 (v : (⟨S100000, .f32⟩ : BufTy).Contents (Elt F)) :
    (TRef.of (T := ⟨S100000, .f32⟩) main_call3_v0).toBuf (Val := Elt F) v = v := rfl
theorem ofBuf_call3_v0 (v : main_call3_v0.ty.Contents (Elt F)) :
    (TRef.of (T := ⟨S100000, .f32⟩) main_call3_v0).ofBuf (Val := Elt F) v = v := rfl
theorem toBuf_call3_cst_0 (v : (⟨S_, .f32⟩ : BufTy).Contents (Elt F)) :
    (TRef.of (T := ⟨S_, .f32⟩) main_call3_cst_0).toBuf (Val := Elt F) v = v := rfl
theorem ofBuf_call3_cst_0 (v : main_call3_cst_0.ty.Contents (Elt F)) :
    (TRef.of (T := ⟨S_, .f32⟩) main_call3_cst_0).ofBuf (Val := Elt F) v = v := rfl
theorem toBuf_call3_v1 (v : (⟨S100000, .f32⟩ : BufTy).Contents (Elt F)) :
    (TRef.of (T := ⟨S100000, .f32⟩) main_call3_v1).toBuf (Val := Elt F) v = v := rfl
theorem ofBuf_call3_v1 (v : main_call3_v1.ty.Contents (Elt F)) :
    (TRef.of (T := ⟨S100000, .f32⟩) main_call3_v1).ofBuf (Val := Elt F) v = v := rfl
theorem toBuf_call3_v2 (v : (⟨S100000, .f32⟩ : BufTy).Contents (Elt F)) :
    (TRef.of (T := ⟨S100000, .f32⟩) main_call3_v2).toBuf (Val := Elt F) v = v := rfl
theorem ofBuf_call3_v2 (v : main_call3_v2.ty.Contents (Elt F)) :
    (TRef.of (T := ⟨S100000, .f32⟩) main_call3_v2).ofBuf (Val := Elt F) v = v := rfl
theorem toBuf_call3_v3 (v : (⟨S100000x1, .f32⟩ : BufTy).Contents (Elt F)) :
    (TRef.of (T := ⟨S100000x1, .f32⟩) main_call3_v3).toBuf (Val := Elt F) v = v := rfl
theorem ofBuf_call3_v3 (v : main_call3_v3.ty.Contents (Elt F)) :
    (TRef.of (T := ⟨S100000x1, .f32⟩) main_call3_v3).ofBuf (Val := Elt F) v = v := rfl
theorem toBuf_call3_v4 (v : (⟨S100000x16, .f32⟩ : BufTy).Contents (Elt F)) :
    (TRef.of (T := ⟨S100000x16, .f32⟩) main_call3_v4).toBuf (Val := Elt F) v = v := rfl
theorem ofBuf_call3_v4 (v : main_call3_v4.ty.Contents (Elt F)) :
    (TRef.of (T := ⟨S100000x16, .f32⟩) main_call3_v4).ofBuf (Val := Elt F) v = v := rfl
theorem toBuf_call3_v5 (v : (⟨S100000x16, .f32⟩ : BufTy).Contents (Elt F)) :
    (TRef.of (T := ⟨S100000x16, .f32⟩) main_call3_v5).toBuf (Val := Elt F) v = v := rfl
theorem ofBuf_call3_v5 (v : main_call3_v5.ty.Contents (Elt F)) :
    (TRef.of (T := ⟨S100000x16, .f32⟩) main_call3_v5).ofBuf (Val := Elt F) v = v := rfl
theorem toBuf_call3_v6 (v : (⟨S100000x16, .f32⟩ : BufTy).Contents (Elt F)) :
    (TRef.of (T := ⟨S100000x16, .f32⟩) main_call3_v6).toBuf (Val := Elt F) v = v := rfl
theorem ofBuf_call3_v6 (v : main_call3_v6.ty.Contents (Elt F)) :
    (TRef.of (T := ⟨S100000x16, .f32⟩) main_call3_v6).ofBuf (Val := Elt F) v = v := rfl
theorem toBuf_call3_cst_1 (v : (⟨S_, .f32⟩ : BufTy).Contents (Elt F)) :
    (TRef.of (T := ⟨S_, .f32⟩) main_call3_cst_1).toBuf (Val := Elt F) v = v := rfl
theorem ofBuf_call3_cst_1 (v : main_call3_cst_1.ty.Contents (Elt F)) :
    (TRef.of (T := ⟨S_, .f32⟩) main_call3_cst_1).ofBuf (Val := Elt F) v = v := rfl
theorem toBuf_call3_v7 (v : (⟨S100000, .f32⟩ : BufTy).Contents (Elt F)) :
    (TRef.of (T := ⟨S100000, .f32⟩) main_call3_v7).toBuf (Val := Elt F) v = v := rfl
theorem ofBuf_call3_v7 (v : main_call3_v7.ty.Contents (Elt F)) :
    (TRef.of (T := ⟨S100000, .f32⟩) main_call3_v7).ofBuf (Val := Elt F) v = v := rfl
theorem toBuf_call3_v8 (v : (⟨S100000x1, .f32⟩ : BufTy).Contents (Elt F)) :
    (TRef.of (T := ⟨S100000x1, .f32⟩) main_call3_v8).toBuf (Val := Elt F) v = v := rfl
theorem ofBuf_call3_v8 (v : main_call3_v8.ty.Contents (Elt F)) :
    (TRef.of (T := ⟨S100000x1, .f32⟩) main_call3_v8).ofBuf (Val := Elt F) v = v := rfl
theorem toBuf_call3_v9 (v : (⟨S100000x1, .f32⟩ : BufTy).Contents (Elt F)) :
    (TRef.of (T := ⟨S100000x1, .f32⟩) main_call3_v9).toBuf (Val := Elt F) v = v := rfl
theorem ofBuf_call3_v9 (v : main_call3_v9.ty.Contents (Elt F)) :
    (TRef.of (T := ⟨S100000x1, .f32⟩) main_call3_v9).ofBuf (Val := Elt F) v = v := rfl
theorem toBuf_call3_v10 (v : (⟨S100000x16, .f32⟩ : BufTy).Contents (Elt F)) :
    (TRef.of (T := ⟨S100000x16, .f32⟩) main_call3_v10).toBuf (Val := Elt F) v = v := rfl
theorem ofBuf_call3_v10 (v : main_call3_v10.ty.Contents (Elt F)) :
    (TRef.of (T := ⟨S100000x16, .f32⟩) main_call3_v10).ofBuf (Val := Elt F) v = v := rfl

/-- Rewrites every such change of type away, one occurrence at a time. -/
macro "drop_casts" : tactic => `(tactic| repeat (first | rw [toBuf_v71] | rw [ofBuf_v71] | rw [toBuf_v72] | rw [ofBuf_v72] | rw [toBuf_call3_cst] | rw [ofBuf_call3_cst] | rw [toBuf_call3_v0] | rw [ofBuf_call3_v0] | rw [toBuf_call3_cst_0] | rw [ofBuf_call3_cst_0] | rw [toBuf_call3_v1] | rw [ofBuf_call3_v1] | rw [toBuf_call3_v2] | rw [ofBuf_call3_v2] | rw [toBuf_call3_v3] | rw [ofBuf_call3_v3] | rw [toBuf_call3_v4] | rw [ofBuf_call3_v4] | rw [toBuf_call3_v5] | rw [ofBuf_call3_v5] | rw [toBuf_call3_v6] | rw [ofBuf_call3_v6] | rw [toBuf_call3_cst_1] | rw [ofBuf_call3_cst_1] | rw [toBuf_call3_v7] | rw [ofBuf_call3_v7] | rw [toBuf_call3_v8] | rw [ofBuf_call3_v8] | rw [toBuf_call3_v9] | rw [ofBuf_call3_v9] | rw [toBuf_call3_v10] | rw [ofBuf_call3_v10]))

/-! ## The second dense layer, stretch by stretch -/

/-- The dense part of the second layer, of what the stretch finds. -/
theorem D1_pre (V : Valuation τ sig (Elt F)) : after (opsD1 (F := F)) V (Proc.devRef .tc main_v71)
    = Cert.ReferenceIdeal.Layers.pre2 (F := F) (V (Proc.devRef .tc main_v52)) (V (Proc.devRef .tc main_v65)) (V (Proc.devRef .tc main_arg5)) (V (Proc.devRef .tc main_arg6)) (V (Proc.devRef .tc main_arg7)) := by
  simp only [opsD1, ops, List.take_succ_cons, List.take_zero, List.drop_succ_cons, List.drop_zero]
  after_results_simp <;> rfl

/-- Each row's largest entry of the dense part. -/
theorem D2_max (V : Valuation τ sig (Elt F)) : after (opsD2 (F := F)) V (Proc.devRef .tc main_call3_v2)
    = Cert.ReferenceIdeal.Layers.rowMax (F := F) (V (Proc.devRef .tc main_v71)) := by
  simp only [opsD2, ops, List.take_succ_cons, List.take_zero, List.drop_succ_cons, List.drop_zero]
  after_results_simp
  drop_casts
  all_goals rfl

/-- The maxima's stretch does not write the dense part. -/
theorem D2_v71 (V : Valuation τ sig (Elt F)) : after (opsD2 (F := F)) V (Proc.devRef .tc main_v71) = V (Proc.devRef .tc main_v71) := by
  simp only [opsD2, ops, List.take_succ_cons, List.take_zero, List.drop_succ_cons, List.drop_zero]
  after_results_simp <;> rfl

/-- The dense part shifted by whatever column of maxima the stretch finds. -/
theorem D3_shift (V : Valuation τ sig (Elt F)) (a : FVec F S100000x16 .f32)
    (ha : V (Proc.devRef .tc main_v71) = a)
    (hm : V (Proc.devRef .tc main_call3_v2) = Cert.ReferenceIdeal.Layers.rowMax (F := F) a) :
    after (opsD3 (F := F)) V (Proc.devRef .tc main_call3_v5) = Cert.ReferenceIdeal.Layers.shifted (F := F) a := by
  simp only [opsD3, ops, List.take_succ_cons, List.take_zero, List.drop_succ_cons, List.drop_zero]
  after_results_simp
  drop_casts
  rw [ha, hm]
  all_goals rfl

/-- The row sums of the exponentials of what the stretch finds shifted. -/
theorem D4_sum (V : Valuation τ sig (Elt F)) : after (opsD4 (F := F)) V (Proc.devRef .tc main_call3_v7)
    = Host.reduceAdd (Host.exp (V (Proc.devRef .tc main_call3_v5))) (constant (F := F) S_ .f32 0x00000000#32) reducesTo_S100000x16_S100000_d1 h_S_ := by
  simp only [opsD4, ops, List.take_succ_cons, List.take_zero, List.drop_succ_cons, List.drop_zero]
  after_results_simp
  drop_casts
  all_goals rfl

/-- The sums' stretch does not write the shifted entries. -/
theorem D4_call3_v5 (V : Valuation τ sig (Elt F)) : after (opsD4 (F := F)) V (Proc.devRef .tc main_call3_v5) = V (Proc.devRef .tc main_call3_v5) := by
  simp only [opsD4, ops, List.take_succ_cons, List.take_zero, List.drop_succ_cons, List.drop_zero]
  after_results_simp <;> rfl

/-- The log-softmax, when the last stretch finds the shifted entries and their exponentials' row sums in their buffers. -/
theorem D5_result (V : Valuation τ sig (Elt F)) (a : FVec F S100000x16 .f32)
    (hz : V (Proc.devRef .tc main_call3_v5) = Cert.ReferenceIdeal.Layers.shifted (F := F) a)
    (hs : V (Proc.devRef .tc main_call3_v7)
      = Host.reduceAdd (Host.exp (Cert.ReferenceIdeal.Layers.shifted (F := F) a)) (constant (F := F) S_ .f32 0x00000000#32) reducesTo_S100000x16_S100000_d1 h_S_) :
    after (opsD5 (F := F)) V (Proc.devRef .tc main_v72) = Cert.ReferenceIdeal.Layers.logSoftmax (F := F) a := by
  simp only [opsD5, ops, List.take_succ_cons, List.take_zero, List.drop_succ_cons, List.drop_zero]
  after_results_simp
  drop_casts
  rw [hz, hs]
  all_goals rfl

/-! ## The whole list -/

/-- After all operations the result buffer holds the network function of what the arguments' buffers held before. -/
theorem result_eq (V : Valuation τ sig (Elt F)) : after (ops (F := F)) V (Proc.devRef .tc main_v72)
    = Cert.ReferenceIdeal.Layers.network (F := F) (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) := by
  -- the hidden features, their aggregate and the second layer's parameters after the third stretch
  have hh : (after (opsC (F := F)) (after opsB (after opsA V))) (Proc.devRef .tc main_v52) = (Cert.ReferenceIdeal.Layers.layer1 (F := F) (V (Proc.devRef .tc main_arg0)) (Cert.ReferenceIdeal.Layers.aggr128 (F := F) (V (Proc.devRef .tc main_arg0)) (V (Proc.devRef .tc main_arg1))) (V (Proc.devRef .tc main_arg2)) (V (Proc.devRef .tc main_arg3)) (V (Proc.devRef .tc main_arg4))) := by
    rw [C_v52, B_hidden, A_arg0, A_aggr, A_arg2, A_arg3, A_arg4]
  have ha : (after (opsC (F := F)) (after opsB (after opsA V))) (Proc.devRef .tc main_v65)
      = Cert.ReferenceIdeal.Layers.aggr64 (F := F) (Cert.ReferenceIdeal.Layers.layer1 (F := F) (V (Proc.devRef .tc main_arg0)) (Cert.ReferenceIdeal.Layers.aggr128 (F := F) (V (Proc.devRef .tc main_arg0)) (V (Proc.devRef .tc main_arg1))) (V (Proc.devRef .tc main_arg2)) (V (Proc.devRef .tc main_arg3)) (V (Proc.devRef .tc main_arg4))) (V (Proc.devRef .tc main_arg1)) := by
    rw [C_aggr _ (V (Proc.devRef .tc main_arg1)) (by rw [B_v1, A_src]) (by rw [B_v3, A_dst]) (by rw [B_v32, A_norm]),
      B_hidden, A_arg0, A_aggr, A_arg2, A_arg3, A_arg4]
  have h5 : (after (opsC (F := F)) (after opsB (after opsA V))) (Proc.devRef .tc main_arg5) = (V (Proc.devRef .tc main_arg5)) := by rw [C_arg5, B_arg5, A_arg5]
  have h6 : (after (opsC (F := F)) (after opsB (after opsA V))) (Proc.devRef .tc main_arg6) = (V (Proc.devRef .tc main_arg6)) := by rw [C_arg6, B_arg6, A_arg6]
  have h7 : (after (opsC (F := F)) (after opsB (after opsA V))) (Proc.devRef .tc main_arg7) = (V (Proc.devRef .tc main_arg7)) := by rw [C_arg7, B_arg7, A_arg7]
  -- the dense part of the second layer after the fourth
  have hp : (after (opsD1 (F := F)) (after (opsC (F := F)) (after opsB (after opsA V)))) (Proc.devRef .tc main_v71) = (Cert.ReferenceIdeal.Layers.pre2 (F := F) (Cert.ReferenceIdeal.Layers.layer1 (F := F) (V (Proc.devRef .tc main_arg0)) (Cert.ReferenceIdeal.Layers.aggr128 (F := F) (V (Proc.devRef .tc main_arg0)) (V (Proc.devRef .tc main_arg1))) (V (Proc.devRef .tc main_arg2)) (V (Proc.devRef .tc main_arg3)) (V (Proc.devRef .tc main_arg4))) (Cert.ReferenceIdeal.Layers.aggr64 (F := F) (Cert.ReferenceIdeal.Layers.layer1 (F := F) (V (Proc.devRef .tc main_arg0)) (Cert.ReferenceIdeal.Layers.aggr128 (F := F) (V (Proc.devRef .tc main_arg0)) (V (Proc.devRef .tc main_arg1))) (V (Proc.devRef .tc main_arg2)) (V (Proc.devRef .tc main_arg3)) (V (Proc.devRef .tc main_arg4))) (V (Proc.devRef .tc main_arg1))) (V (Proc.devRef .tc main_arg5)) (V (Proc.devRef .tc main_arg6)) (V (Proc.devRef .tc main_arg7))) := by
    rw [D1_pre, hh, ha, h5, h6, h7]
  -- its shifted entries after the sixth, kept by the seventh
  have hz3 : after (opsD3 (F := F)) (after opsD2 (after (opsD1 (F := F)) (after (opsC (F := F)) (after opsB (after opsA V))))) (Proc.devRef .tc main_call3_v5)
      = Cert.ReferenceIdeal.Layers.shifted (F := F) (Cert.ReferenceIdeal.Layers.pre2 (F := F) (Cert.ReferenceIdeal.Layers.layer1 (F := F) (V (Proc.devRef .tc main_arg0)) (Cert.ReferenceIdeal.Layers.aggr128 (F := F) (V (Proc.devRef .tc main_arg0)) (V (Proc.devRef .tc main_arg1))) (V (Proc.devRef .tc main_arg2)) (V (Proc.devRef .tc main_arg3)) (V (Proc.devRef .tc main_arg4))) (Cert.ReferenceIdeal.Layers.aggr64 (F := F) (Cert.ReferenceIdeal.Layers.layer1 (F := F) (V (Proc.devRef .tc main_arg0)) (Cert.ReferenceIdeal.Layers.aggr128 (F := F) (V (Proc.devRef .tc main_arg0)) (V (Proc.devRef .tc main_arg1))) (V (Proc.devRef .tc main_arg2)) (V (Proc.devRef .tc main_arg3)) (V (Proc.devRef .tc main_arg4))) (V (Proc.devRef .tc main_arg1))) (V (Proc.devRef .tc main_arg5)) (V (Proc.devRef .tc main_arg6)) (V (Proc.devRef .tc main_arg7))) :=
    D3_shift _ _ ((D2_v71 _).trans hp) ((D2_max _).trans (congrArg (Cert.ReferenceIdeal.Layers.rowMax (F := F)) hp))
  rw [after_ops]
  exact D5_result _ (Cert.ReferenceIdeal.Layers.pre2 (F := F) (Cert.ReferenceIdeal.Layers.layer1 (F := F) (V (Proc.devRef .tc main_arg0)) (Cert.ReferenceIdeal.Layers.aggr128 (F := F) (V (Proc.devRef .tc main_arg0)) (V (Proc.devRef .tc main_arg1))) (V (Proc.devRef .tc main_arg2)) (V (Proc.devRef .tc main_arg3)) (V (Proc.devRef .tc main_arg4))) (Cert.ReferenceIdeal.Layers.aggr64 (F := F) (Cert.ReferenceIdeal.Layers.layer1 (F := F) (V (Proc.devRef .tc main_arg0)) (Cert.ReferenceIdeal.Layers.aggr128 (F := F) (V (Proc.devRef .tc main_arg0)) (V (Proc.devRef .tc main_arg1))) (V (Proc.devRef .tc main_arg2)) (V (Proc.devRef .tc main_arg3)) (V (Proc.devRef .tc main_arg4))) (V (Proc.devRef .tc main_arg1))) (V (Proc.devRef .tc main_arg5)) (V (Proc.devRef .tc main_arg6)) (V (Proc.devRef .tc main_arg7))) ((D4_call3_v5 _).trans hz3) ((D4_sum _).trans (by rw [hz3]))

/-- No operation writes argument 0. -/
theorem kept_arg0 (V : Valuation τ sig (Elt F)) : after (ops (F := F)) V (Proc.devRef .tc main_arg0) = V (Proc.devRef .tc main_arg0) := by
  simp only [ops]
  after_results_simp <;> rfl

/-- No operation writes argument 1. -/
theorem kept_arg1 (V : Valuation τ sig (Elt F)) : after (ops (F := F)) V (Proc.devRef .tc main_arg1) = V (Proc.devRef .tc main_arg1) := by
  simp only [ops]
  after_results_simp <;> rfl

/-- No operation writes argument 2. -/
theorem kept_arg2 (V : Valuation τ sig (Elt F)) : after (ops (F := F)) V (Proc.devRef .tc main_arg2) = V (Proc.devRef .tc main_arg2) := by
  simp only [ops]
  after_results_simp <;> rfl

/-- No operation writes argument 3. -/
theorem kept_arg3 (V : Valuation τ sig (Elt F)) : after (ops (F := F)) V (Proc.devRef .tc main_arg3) = V (Proc.devRef .tc main_arg3) := by
  simp only [ops]
  after_results_simp <;> rfl

/-- No operation writes argument 4. -/
theorem kept_arg4 (V : Valuation τ sig (Elt F)) : after (ops (F := F)) V (Proc.devRef .tc main_arg4) = V (Proc.devRef .tc main_arg4) := by
  simp only [ops]
  after_results_simp <;> rfl

/-- No operation writes argument 5. -/
theorem kept_arg5 (V : Valuation τ sig (Elt F)) : after (ops (F := F)) V (Proc.devRef .tc main_arg5) = V (Proc.devRef .tc main_arg5) := by
  simp only [ops]
  after_results_simp <;> rfl

/-- No operation writes argument 6. -/
theorem kept_arg6 (V : Valuation τ sig (Elt F)) : after (ops (F := F)) V (Proc.devRef .tc main_arg6) = V (Proc.devRef .tc main_arg6) := by
  simp only [ops]
  after_results_simp <;> rfl

/-- No operation writes argument 7. -/
theorem kept_arg7 (V : Valuation τ sig (Elt F)) : after (ops (F := F)) V (Proc.devRef .tc main_arg7) = V (Proc.devRef .tc main_arg7) := by
  simp only [ops]
  after_results_simp <;> rfl

/-! ## The run -/

/-- The reference's run with its result named: every weakly fair execution terminates, the result buffer at the network
    function of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72)
        = Cert.ReferenceIdeal.Layers.network (F := F) (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v72).trans (result_eq _), (h c main_arg0).trans (kept_arg0 _), (h c main_arg1).trans (kept_arg1 _),
        (h c main_arg2).trans (kept_arg2 _), (h c main_arg3).trans (kept_arg3 _), (h c main_arg4).trans (kept_arg4 _),
        (h c main_arg5).trans (kept_arg5 _), (h c main_arg6).trans (kept_arg6 _), (h c main_arg7).trans (kept_arg7 _)⟩)
    (run_seq scopedRefs_eq scopedSems_eq defs main (fun _ => ops) main_eq (fun _ => ops_sub) m ρ)

end Cert.ReferenceIdeal.RefValue

end
-- ==== Proof.lean ====
/-
  The certificate of a two-layer Chebyshev graph network (two dense Pallas regions among host gathers and
  scatter-adds) against its jnp reference, over the extended reals.

  Both programs compute the same graph quantities with the same host operations: the edges' weights (0 on a self-loop),
  the degrees, the symmetric normalisation, and for each layer the aggregate t = scatter-add over destinations of
  (edge entry · source row). Where the reference then forms x · W0 + t · W1 + b by two host matrix products and clamps at
  zero (layer 1) or takes the log-softmax of each row (layer 2), the kernel does the same in blocks of 5000 rows, its
  matrix products into a zero accumulator. At the ideal values a change of float format is the identity, both kinds of
  matrix product are the sum over the contracted coordinate, the row maximum from minus infinity and the row sum from zero
  are the same folds, and a row's result depends on that row only; so each region's output array is, entry by entry, the
  reference's layer of the region's operands, and the whole result is the reference's network function of the arguments.
  No law of the extended reals beyond these readings is used, and the precondition is not opened.

  The three frames: the two kernel programs' are the generated frame certificates; the reference's is its run with the
  result dropped. The idealization rewrote nothing, so there is nothing to preserve.
-/
import proofs.«179500_j36627481101156_1_alg».proof.Defs
import proofs.«179500_j36627481101156_1_alg».proof.Proof.Gen.Kernel
import proofs.«179500_j36627481101156_1_alg».proof.Proof.Gen.Kernel.Frame
import proofs.«179500_j36627481101156_1_alg».proof.Proof.Gen.KernelIdeal
import proofs.«179500_j36627481101156_1_alg».proof.Proof.Gen.KernelIdeal.Frame
import proofs.«179500_j36627481101156_1_alg».proof.Proof.Gen.ReferenceIdeal
import proofs.«179500_j36627481101156_1_alg».proof.Proof.Gen.Pre_finite_inputs
import proofs.«179500_j36627481101156_1_alg».proof.Proof.KernelValue
import proofs.«179500_j36627481101156_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

/-- Both programs end at the network function of the arguments: the kernel program's result array by the two regions'
    values, the reference's by its run; from memories that agree on the arguments these are one array. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
